-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn_part1 {F : FTy → Type} [FloatOps F] (main_v10 : IVec S_ 1) (main_v15 : IVec S1024x256 1) (main_c_5 : IVec S_ 1) : IVec S_ 1 :=
  let main_v16 : IVec S_ 1 := (fun x v => Host.reduce IntOp.andi x v reducesTo_S1024x256_S_d0_1 h_S_) main_v15 main_c_5
  let main_v17 : IVec S_ 1 := andi main_v10 main_v16
  main_v17

def fn {F : FTy → Type} [FloatOps F] (main_arg0 : FVec F S1024x256 .f32) (main_arg1 : IVec S1024x256 32) (main_arg2 : IVec S1024x256 32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_c_0 : IVec S_ 32 := constantI S_ 32 0#32
  let main_v4 : IVec S1024x256 32 := broadcastInDim S1024x256 ![] bcast_S_S1024x256 main_c_0
  let main_v5 : IVec S1024x256 1 := cmpi .eq main_arg1 main_v4
  let main_c_1 : IVec S_ 32 := constantI S_ 32 1#32
  let main_v6 : IVec S1024x256 32 := broadcastInDim S1024x256 ![] bcast_S_S1024x256 main_c_1
  let main_v7 : IVec S1024x256 1 := cmpi .eq main_arg1 main_v6
  let main_v8 : IVec S1024x256 1 := ori main_v5 main_v7
  let main_c_2 : IVec S_ 1 := constantI S_ 1 1#1
  let main_v9 : IVec S_ 1 := (fun x v => Host.reduce IntOp.andi x v reducesTo_S1024x256_S_d0_1 h_S_) main_v8 main_c_2
  let main_v10 : IVec S_ 1 := andi main_v3 main_v9
  let main_c_3 : IVec S_ 32 := constantI S_ 32 0#32
  let main_v11 : IVec S1024x256 32 := broadcastInDim S1024x256 ![] bcast_S_S1024x256 main_c_3
  let main_v12 : IVec S1024x256 1 := cmpi .eq main_arg2 main_v11
  let main_c_4 : IVec S_ 32 := constantI S_ 32 1#32
  let main_v13 : IVec S1024x256 32 := broadcastInDim S1024x256 ![] bcast_S_S1024x256 main_c_4
  let main_v14 : IVec S1024x256 1 := cmpi .eq main_arg2 main_v13
  let main_v15 : IVec S1024x256 1 := ori main_v12 main_v14
  let main_c_5 : IVec S_ 1 := constantI S_ 1 1#1
  fn_part1 (F := F) main_v10 main_v15 main_c_5
-- ==== Kernel.lean ====
abbrev S1024x256 : Shape := ⟨2, ![1024, 256]⟩
abbrev S16x128 : Shape := ⟨2, ![16, 128]⟩
abbrev S16x256 : Shape := ⟨2, ![16, 256]⟩
abbrev S8x128 : Shape := ⟨2, ![8, 128]⟩
abbrev S1x1 : Shape := ⟨2, ![1, 1]⟩
abbrev S16x64 : Shape := ⟨2, ![16, 64]⟩
abbrev S16x64x1 : Shape := ⟨3, ![16, 64, 1]⟩
abbrev S16x1x256 : Shape := ⟨3, ![16, 1, 256]⟩
abbrev S16x64x256 : Shape := ⟨3, ![16, 64, 256]⟩
abbrev S16 : Shape := ⟨1, ![16]⟩
abbrev S16x1 : Shape := ⟨2, ![16, 1]⟩
abbrev S1 : Shape := ⟨1, ![1]⟩
abbrev S_ : Shape := ⟨0, ![]⟩

abbrev nBuf : Space → Nat
  | .hbm => 6
  | .vmem => 9
  | .smem => 0
  | _ => 0

abbrev bufTy : (tb : Table) → Fin (tcTables nBuf tb) → BufTy
  | .hbm, ⟨0, _⟩ => ⟨S1024x256, .f32⟩
  | .hbm, ⟨1, _⟩ => ⟨S1024x256, .i32⟩
  | .hbm, ⟨2, _⟩ => ⟨S1024x256, .i32⟩
  | .hbm, ⟨3, _⟩ => ⟨S16x128, .f32⟩
  | .hbm, ⟨4, _⟩ => ⟨S_, .f32⟩
  | .hbm, ⟨5, _⟩ => ⟨S_, .f32⟩
  | .local _ .vmem, ⟨0, _⟩ => ⟨S16x256, .f32⟩
  | .local _ .vmem, ⟨1, _⟩ => ⟨S16x256, .f32⟩
  | .local _ .vmem, ⟨2, _⟩ => ⟨S16x256, .i32⟩
  | .local _ .vmem, ⟨3, _⟩ => ⟨S16x256, .i32⟩
  | .local _ .vmem, ⟨4, _⟩ => ⟨S16x256, .i32⟩
  | .local _ .vmem, ⟨5, _⟩ => ⟨S16x256, .i32⟩
  | .local _ .vmem, ⟨6, _⟩ => ⟨S8x128, .f32⟩
  | .local _ .vmem, ⟨7, _⟩ => ⟨S8x128, .f32⟩
  | .local _ .vmem, ⟨8, _⟩ => ⟨S1x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v158 : BitVec 1 := Scalar.cmpi .eq arg1 c31_i32
  let v159 : BitVec 32 := Scalar.extui v158
  let c0_i32_39 : BitVec 32 := 0#32
  let v160 : BitVec 1 := Scalar.cmpi .ne v159 c0_i32_39
  v160

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x256_S16x256_0_0 : ∀ a, (![0, 0] : Fin 2 → Nat) a + S16x256.size a ≤ S16x256.size a
  h_S16x256 : 0 < S16x256.numel
  slices_S16x256_o0_0_S16x64 : S16x256.Slices ![0, 0] S16x64
  shapeCasts_S16x64_S16x64x1 : S16x64.ShapeCasts S16x64x1
  shapeCasts_S16x256_S16x1x256 : S16x256.ShapeCasts S16x1x256
  broadcasts_S16x64x1_S16x64x256 : S16x64x1.Broadcasts S16x64x256
  broadcasts_S16x1x256_S16x64x256 : S16x1x256.Broadcasts S16x64x256
  reduces_S16x64x256_S16x64 : S16x64x256.Reduces [2] S16x64
  reduces_S16x64_S16 : S16x64.Reduces [1] S16
  shapeCasts_S16_S16x1 : S16.ShapeCasts S16x1
  reduces_S16x1_S1 : S16x1.Reduces [0] S1
  shapeCasts_S1_S1x1 : S1.ShapeCasts S1x1
  slices_S16x256_o0_64_S16x64 : S16x256.Slices ![0, 64] S16x64
  slices_S16x256_o0_128_S16x64 : S16x256.Slices ![0, 128] S16x64
  slices_S16x256_o0_192_S16x64 : S16x256.Slices ![0, 192] S16x64
  iota_S8x128_d0_w32 : S8x128.Iotas .tc 32 [0]
  iota_S8x128_d1_w32 : S8x128.Iotas .tc 32 [1]
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S1024x256.size a
  hwx0_0 : ∀ i : grid0.Coords, EltTy.bits .f32 = 32 ∨ (Rect.block (s := S1024x256) S16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S1024x256.size a
  hwx0_1 : ∀ i : grid0.Coords, EltTy.bits .i32 = 32 ∨ (Rect.block (s := S1024x256) S16x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S1024x256.size a
  hwx0_2 : ∀ i : grid0.Coords, EltTy.bits .i32 = 32 ∨ (Rect.block (s := S1024x256) S16x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

abbrev win0_0 : Pipeline.Window sig grid0 :=
  Pipeline.Window.ofSpec (Memref.whole main_arg0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x256 : Shape := ⟨2, ![1024, 256]⟩
abbrev S1024x256x1 : Shape := ⟨3, ![1024, 256, 1]⟩
abbrev S1024x1x256 : Shape := ⟨3, ![1024, 1, 256]⟩
abbrev S1024x256x256 : Shape := ⟨3, ![1024, 256, 256]⟩
abbrev S_ : Shape := ⟨0, ![]⟩
abbrev S256x256 : Shape := ⟨2, ![256, 256]⟩
abbrev S1x256x256 : Shape := ⟨3, ![1, 256, 256]⟩

abbrev nBuf : Space → Nat
  | .hbm => 59
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .i32⟩
  | .hbm, ⟨2, _⟩ => ⟨S1024x256, .i32⟩
  | .hbm, ⟨3, _⟩ => ⟨S1024x256, .f32⟩
  | .hbm, ⟨4, _⟩ => ⟨S1024x256x1, .f32⟩
  | .hbm, ⟨5, _⟩ => ⟨S1024x1x256, .f32⟩
  | .hbm, ⟨6, _⟩ => ⟨S1024x256x256, .f32⟩
  | .hbm, ⟨7, _⟩ => ⟨S1024x256x256, .f32⟩
  | .hbm, ⟨8, _⟩ => ⟨S1024x256x256, .f32⟩
  | .hbm, ⟨9, _⟩ => ⟨S1024x256x1, .f32⟩
  | .hbm, ⟨10, _⟩ => ⟨S1024x1x256, .f32⟩
  | .hbm, ⟨11, _⟩ => ⟨S1024x256x256, .f32⟩
  | .hbm, ⟨12, _⟩ => ⟨S1024x256x256, .f32⟩
  | .hbm, ⟨13, _⟩ => ⟨S1024x256x256, .f32⟩
  | .hbm, ⟨14, _⟩ => ⟨S1024x256x1, .i32⟩
  | .hbm, ⟨15, _⟩ => ⟨S1024x1x256, .i32⟩
  | .hbm, ⟨16, _⟩ => ⟨S1024x256x256, .i32⟩
  | .hbm, ⟨17, _⟩ => ⟨S1024x256x256, .i32⟩
  | .hbm, ⟨18, _⟩ => ⟨S1024x256x256, .i32⟩
  | .hbm, ⟨19, _⟩ => ⟨S1024x256x256, .f32⟩
  | .hbm, ⟨20, _⟩ => ⟨S_, .i1⟩
  | .hbm, ⟨21, _⟩ => ⟨S256x256, .i1⟩
  | .hbm, ⟨22, _⟩ => ⟨S256x256, .i32⟩
  | .hbm, ⟨23, _⟩ => ⟨S_, .i32⟩
  | .hbm, ⟨24, _⟩ => ⟨S256x256, .i32⟩
  | .hbm, ⟨25, _⟩ => ⟨S256x256, .i32⟩
  | .hbm, ⟨26, _⟩ => ⟨S256x256, .i32⟩
  | .hbm, ⟨27, _⟩ => ⟨S256x256, .i1⟩
  | .hbm, ⟨28, _⟩ => ⟨S_, .i1⟩
  | .hbm, ⟨29, _⟩ => ⟨S256x256, .i1⟩
  | .hbm, ⟨30, _⟩ => ⟨S256x256, .i1⟩
  | .hbm, ⟨31, _⟩ => ⟨S1024x256x256, .f32⟩
  | .hbm, ⟨32, _⟩ => ⟨S1024x256x256, .f32⟩
  | .hbm, ⟨33, _⟩ => ⟨S_, .f32⟩
  | .hbm, ⟨34, _⟩ => ⟨S1024x256x256, .f32⟩
  | .hbm, ⟨35, _⟩ => ⟨S1024x256x256, .f32⟩
  | .hbm, ⟨36, _⟩ => ⟨S1024x256x256, .f32⟩
  | .hbm, ⟨37, _⟩ => ⟨S1024x256x256, .f32⟩
  | .hbm, ⟨38, _⟩ => ⟨S1024x256x256, .i1⟩
  | .hbm, ⟨39, _⟩ => ⟨S1024x256x256, .f32⟩
  | .hbm, ⟨40, _⟩ => ⟨S1024x256x256, .f32⟩
  | .hbm, ⟨41, _⟩ => ⟨S1024x256x256, .f32⟩
  | .hbm, ⟨42, _⟩ => ⟨S1024x256x256, .f32⟩
  | .hbm, ⟨43, _⟩ => ⟨S1024x256x256, .f32⟩
  | .hbm, ⟨44, _⟩ => ⟨S1024x256x256, .f32⟩
  | .hbm, ⟨45, _⟩ => ⟨S1024x256x256, .f32⟩
  | .hbm, ⟨46, _⟩ => ⟨S1024x256x256, .f32⟩
  | .hbm, ⟨47, _⟩ => ⟨S1024x256x256, .f32⟩
  | .hbm, ⟨48, _⟩ => ⟨S1024x256x256, .f32⟩
  | .hbm, ⟨49, _⟩ => ⟨S1024x256x256, .f32⟩
  | .hbm, ⟨50, _⟩ => ⟨S1024x256x256, .f32⟩
  | .hbm, ⟨51, _⟩ => ⟨S1x256x256, .i1⟩
  | .hbm, ⟨52, _⟩ => ⟨S_, .f32⟩
  | .hbm, ⟨53, _⟩ => ⟨S1024x256x256, .i1⟩
  | .hbm, ⟨54, _⟩ => ⟨S1024x256x256, .f32⟩
  | .hbm, ⟨55, _⟩ => ⟨S1024x256x256, .f32⟩
  | .hbm, ⟨56, _⟩ => ⟨S_, .f32⟩
  | .hbm, ⟨57, _⟩ => ⟨S_, .f32⟩
  | .hbm, ⟨58, _⟩ => ⟨S_, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_v17 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v18 : Ref sig .tc := ⟨.hbm, 30, rfl⟩
abbrev main_v19 : Ref sig .tc := ⟨.hbm, 31, rfl⟩
abbrev main_call1_v0 : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_v2 : Ref sig .tc := ⟨.hbm, 36, rfl⟩
abbrev main_call1_call0_v3 : Ref sig .tc := ⟨.hbm, 37, rfl⟩
abbrev main_call1_call0_v4 : Ref sig .tc := ⟨.hbm, 38, rfl⟩
abbrev main_call1_call0_v5 : Ref sig .tc := ⟨.hbm, 39, rfl⟩
abbrev main_call1_call0_v6 : Ref sig .tc := ⟨.hbm, 40, rfl⟩
abbrev main_call1_call0_v7 : Ref sig .tc := ⟨.hbm, 41, rfl⟩
abbrev main_call1_call0_v8 : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_v11 : Ref sig .tc := ⟨.hbm, 45, rfl⟩
abbrev main_call1_v1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_v25 : Ref sig .tc := ⟨.hbm, 55, rfl⟩
abbrev main_cst_0 : Ref sig .tc := ⟨.hbm, 56, rfl⟩
abbrev main_v26 : Ref sig .tc := ⟨.hbm, 57, rfl⟩
abbrev main_v27 : Ref sig .tc := ⟨.hbm, 58, rfl⟩

abbrev nD : Nat := 1
abbrev τ : Topo := Topo.v7x

variable {F : FTy → Type} [FloatOps F]

class Facts₀ : Prop where
  bcast_S1024x256_S1024x256x1_0_1 : S1024x256.BroadcastsInDim S1024x256x1 (![0, 1] : Fin 2 → Fin S1024x256x1.rank)
  bcast_S1024x256_S1024x1x256_0_2 : S1024x256.BroadcastsInDim S1024x1x256 (![0, 2] : Fin 2 → Fin S1024x1x256.rank)
  bcast_S1024x256x1_S1024x256x256_0_1_2 : S1024x256x1.BroadcastsInDim S1024x256x256 (![0, 1, 2] : Fin 3 → Fin S1024x256x256.rank)
  bcast_S1024x1x256_S1024x256x256_0_1_2 : S1024x1x256.BroadcastsInDim S1024x256x256 (![0, 1, 2] : Fin 3 → Fin S1024x256x256.rank)
  bcast_S_S256x256 : S_.BroadcastsInDim S256x256 (![] : Fin 0 → Fin S256x256.rank)
  bcast_S_S1024x256x256 : S_.BroadcastsInDim S1024x256x256 (![] : Fin 0 → Fin S1024x256x256.rank)
  bcast_S256x256_S1x256x256_1_2 : S256x256.BroadcastsInDim S1x256x256 (![1, 2] : Fin 2 → Fin S1x256x256.rank)
  bcast_S1x256x256_S1024x256x256_0_1_2 : S1x256x256.BroadcastsInDim S1024x256x256 (![0, 1, 2] : Fin 3 → Fin S1024x256x256.rank)
  reducesTo_S1024x256x256_S_d0_1_2 : S1024x256x256.ReducesTo [0, 1, 2] S_
  h_S_ : 0 < S_.numel

variable [Facts₀]

class Facts : Prop extends Facts₀ where

variable [Facts]
-- ==== Proof.Spec.lean ====
/-
  The two closed forms this certificate joins, and nothing else: what the kernel's program and the reference
  each compute, written as explicit sums over extended reals of the three argument arrays
  (scores `P`, labels `T`, validity `M`, each [1024, 256]), in the arrangement each program uses.

  Both programs evaluate log σ by the same formula, `ls x = −(max(−x, 0) + log(1 + e^{−|−x|}))`, and read
  an integer word as the number it denotes (`num`).

  * The kernel walks the 1024 rows in 64 blocks of 16 rows (32 blocks per core).  For a block it adds, over
    four column chunks of 64, the sum over the block's rows `k` and the chunk's columns `a` of
        t·m at (k, a)  ×  Σ_j ls(p_a − p_j) · ((1 − t_j)·m_j),
    subtracts each block's total from a per-core accumulator that starts at 0, and the two cores'
    accumulators are added on the host (to an initial 0).
  * The reference sums, over all rows and all column pairs i < j, the term
        ls((p_i − p_j)(t_i − t_j)) · ((t_i − t_j) · num(m_i AND m_j))²,
    on top of an initial 0, and negates.
-/
import Idealize.ShloMosaic.PureOps.Ideal
import Idealize.ShloMosaic.PureOps.Ideal.Laws
import Idealize.ShloMosaic.Lib.ValueIdx

noncomputable section

open scoped BigOperators

namespace Cert.PairLoss

open Idealize.ShloMosaic Idealize.ShloMosaic.ValueIdx

/-- The argument arrays' shape. -/
abbrev SIn : Shape := ⟨2, ![1024, 256]⟩
/-- The shape of the reference's pairwise tensors. -/
abbrev SPair : Shape := ⟨3, ![1024, 256, 256]⟩

/-- log σ(x) as both programs spell it: `−(max(−x, 0) + log(1 + e^{−|−x|}))`, with `|y| = max y (−y)`. -/
def ls (x : EReal) : EReal :=
  -(max (-x) 0 + Ideal.log1p (Ideal.exp (-(max (-x) (-(-x))))))

/-- A 32-bit integer word read as the number it denotes. -/
def num (w : BitVec 32) : EReal := ((w.toInt : ℝ) : EReal)

section
variable (P : FVec Ideal SIn .f32) (T M : IVec SIn 32)

/-- Global row of row `k` of block `t`. -/
def row (t : Fin 64) (k : Fin 16) : Fin 1024 := ⟨16 * t.val + k.val, by omega⟩
/-- Global column of column `a` of chunk `q`. -/
def col (q : Fin 4) (a : Fin 64) : Fin 256 := ⟨64 * q.val + a.val, by omega⟩

/-- `t·m`: the weight of a row position as the first element of a pair. -/
def pos (b : Fin 1024) (i : Fin 256) : EReal := num (T (ix2 b i)) * num (M (ix2 b i))
/-- `(1 − t)·m`: its weight as the second element. -/
def neg (b : Fin 1024) (j : Fin 256) : EReal := (1 - num (T (ix2 b j))) * num (M (ix2 b j))

/-- One chunk of one block, as the kernel sums it. -/
def chunkK (t : Fin 64) (q : Fin 4) : EReal :=
  ∑ k : Fin 16, ∑ a : Fin 64, pos T M (row t k) (col q a) *
    ∑ j : Fin 256, ls (P (ix2 (row t k) (col q a)) - P (ix2 (row t k) j)) * neg T M (row t k) j

/-- One block's total: the four chunks added, left to right, onto 0. -/
def rawK (t : Fin 64) : EReal :=
  (((0 + chunkK P T M t 0) + chunkK P T M t 1) + chunkK P T M t 2) + chunkK P T M t 3

/-- Core `c`'s accumulator after its inner step `n`: 0 minus the first block's total, then each further
    block's total subtracted in turn. -/
def accK (c : Fin 2) : (n : ℕ) → n < 32 → EReal
  | 0, _ => 0 - rawK P T M ⟨32 * c.val, by omega⟩
  | n + 1, h => accK c n (by omega) - rawK P T M ⟨32 * c.val + (n + 1), by omega⟩

/-- The kernel program's result: the two cores' final accumulators, added onto the host sum's initial 0. -/
def kernelVal : EReal := 0 + (accK P T M 0 31 (by omega) + accK P T M 1 31 (by omega))

/-- The reference's term at row `i 0` and the column pair (`i 1`, `i 2`). -/
def pairTerm (i : SPair.Idx) : EReal :=
  ls ((P (ix2 (i 0) (i 1)) - P (ix2 (i 0) (i 2))) * (num (T (ix2 (i 0) (i 1))) - num (T (ix2 (i 0) (i 2)))))
    * (((num (T (ix2 (i 0) (i 1))) - num (T (ix2 (i 0) (i 2)))) * num (M (ix2 (i 0) (i 1)) &&& M (ix2 (i 0) (i 2))))
        * ((num (T (ix2 (i 0) (i 1))) - num (T (ix2 (i 0) (i 2)))) * num (M (ix2 (i 0) (i 1)) &&& M (ix2 (i 0) (i 2)))))

/-- The reference program's result: minus (0 plus the sum of the terms of the pairs with first column before second). -/
def refVal : EReal :=
  -(0 + ∑ i : SPair.Idx, if (i 1).val < (i 2).val then pairTerm P T M i else 0)

end

end Cert.PairLoss

end
-- ==== Proof.Math.lean ====
/-
  The identity that joins the two closed forms.  With finite scores and labels and validity flags in {0, 1}:
  the reference's term at a column pair i < j is ls(±(p_i − p_j)) when exactly one of the two labels is 1 and
  both positions are valid, and 0 otherwise; renaming the pair on the half where the second label is the 1
  turns the sum over i < j into the sum over all ordered pairs i ≠ j of t_i m_i (1 − t_j) m_j ls(p_i − p_j),
  and the diagonal adds nothing because t (1 − t) = 0.  Regrouped by blocks of 16 rows and chunks of 64 columns,
  and with the accumulators' repeated subtraction collected into one negated sum (sound because every quantity
  is a real number), that is the kernel's form.
-/
import proofs.«402266_j6811818132220_3_alg».proof.Proof.Spec

noncomputable section

open scoped BigOperators

namespace Cert.PairLoss

open Idealize.ShloMosaic Idealize.ShloMosaic.ValueIdx

/-! ## Coercion of finite real sums and of conditionals -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (c : Prop) [Decidable c] (x : ℝ) :
    (if c then (x : EReal) else 0) = ((if c then x else 0 : ℝ) : EReal) := by
  split_ifs <;> simp

theorem coe_max (a b : ℝ) : ((max a b : ℝ) : EReal) = max (a : EReal) (b : EReal) :=
  EReal.coe_strictMono.monotone.map_max

/-! ## The log-sigmoid on reals -/

/-- The real function that `ls` computes on finite arguments. -/
def lsR (x : ℝ) : ℝ := -(max (-x) 0 + Real.log (1 + Real.exp (-(max (-x) (-(-x))))))

theorem ls_coe (x : ℝ) : ls (x : EReal) = ((lsR x : ℝ) : EReal) := by
  have hpos : ¬ (1 + Real.exp (-(max (-x) (-(-x)))) ≤ 0) := by
    have := Real.exp_pos (-(max (-x) (-(-x))))
    linarith
  unfold ls lsR Ideal.log1p
  rw [← EReal.coe_neg x, ← EReal.coe_neg (-x), ← coe_max, ← EReal.coe_neg, Ideal.exp_coe,
    ← EReal.coe_one, ← EReal.coe_add, Ideal.log_coe, if_neg hpos, ← EReal.coe_zero, ← coe_max,
    ← EReal.coe_add, ← EReal.coe_neg]

/-! ## Words 0 and 1 as numbers -/

/-- A word's signed value as a real. -/
def numR (w : BitVec 32) : ℝ := (w.toInt : ℝ)

theorem num_coe (w : BitVec 32) : num w = ((numR w : ℝ) : EReal) := rfl

theorem numR_zero : numR 0#32 = 0 := by simp [numR]
theorem numR_one : numR 1#32 = 1 := by
  have : (1#32).toInt = 1 := by decide
  simp [numR, this]

theorem numR_01 {w : BitVec 32} (h : w = 0#32 ∨ w = 1#32) : numR w = 0 ∨ numR w = 1 := by
  rcases h with rfl | rfl
  · exact Or.inl numR_zero
  · exact Or.inr numR_one

theorem numR_and {a b : BitVec 32} (ha : a = 0#32 ∨ a = 1#32) (hb : b = 0#32 ∨ b = 1#32) :
    numR (a &&& b) = numR a * numR b := by
  rcases ha with rfl | rfl <;> rcases hb with rfl | rfl
  · have : (0#32 &&& 0#32) = 0#32 := by decide
    rw [this, numR_zero]; ring
  · have : (0#32 &&& 1#32) = 0#32 := by decide
    rw [this, numR_zero, numR_one]; ring
  · have : (1#32 &&& 0#32) = 0#32 := by decide
    rw [this, numR_zero, numR_one]; ring
  · have : (1#32 &&& 1#32) = 1#32 := by decide
    rw [this, numR_one]; ring

/-! ## Ordered pairs: the sum over i < j of a symmetrised term is the sum over all pairs -/

/-- If `f` vanishes on the diagonal, summing `f i j + f j i` over the pairs with `i` before `j` is summing `f`
    over every ordered pair: the second half is the first with the two names exchanged, and each off-diagonal
    pair is then met exactly once. -/
theorem sum_lt_symm {n : ℕ} (f : Fin n → Fin n → ℝ) (hd : ∀ i, f i i = 0) :
    (∑ i : Fin n, ∑ j : Fin n, if i.val < j.val then f i j + f j i else 0) = ∑ i : Fin n, ∑ j : Fin n, f i j := by
  have h1 : (∑ i : Fin n, ∑ j : Fin n, if i.val < j.val then f i j + f j i else 0)
      = (∑ i : Fin n, ∑ j : Fin n, if i.val < j.val then f i j else 0)
        + ∑ i : Fin n, ∑ j : Fin n, if i.val < j.val then f j i else 0 := by
    rw [← Finset.sum_add_distrib]
    refine Finset.sum_congr rfl fun i _ => ?_
    rw [← Finset.sum_add_distrib]
    refine Finset.sum_congr rfl fun j _ => ?_
    split_ifs <;> simp
  have h2 : (∑ i : Fin n, ∑ j : Fin n, if i.val < j.val then f j i else 0)
      = ∑ i : Fin n, ∑ j : Fin n, if j.val < i.val then f i j else 0 := Finset.sum_comm
  rw [h1, h2, ← Finset.sum_add_distrib]
  refine Finset.sum_congr rfl fun i _ => ?_
  rw [← Finset.sum_add_distrib]
  refine Finset.sum_congr rfl fun j _ => ?_
  rcases Nat.lt_trichotomy i.val j.val with h | h | h
  · rw [if_pos h, if_neg (by omega), add_zero]
  · have : i = j := Fin.ext h
    subst this
    rw [if_neg (by omega), hd, add_zero]
  · rw [if_neg (by omega), if_pos h, zero_add]

/-! ## Regrouping rows by blocks of 16 and columns by chunks of 64 -/

/-- A column is a chunk and a position inside it. -/
def colEquiv : Fin 4 × Fin 64 ≃ Fin 256 where
  toFun x := col x.1 x.2
  invFun i := (⟨i.val / 64, by omega⟩, ⟨i.val % 64, by omega⟩)
  left_inv x := by
    rcases x with ⟨q, a⟩
    refine Prod.ext (Fin.ext ?_) (Fin.ext ?_)
    · show (64 * q.val + a.val) / 64 = q.val
      omega
    · show (64 * q.val + a.val) % 64 = a.val
      omega
  right_inv i := by
    refine Fin.ext ?_
    show 64 * (i.val / 64) + i.val % 64 = i.val
    omega

/-- A row is a block and a position inside it. -/
def rowEquiv : Fin 64 × Fin 16 ≃ Fin 1024 where
  toFun x := row x.1 x.2
  invFun b := (⟨b.val / 16, by omega⟩, ⟨b.val % 16, by omega⟩)
  left_inv x := by
    rcases x with ⟨t, k⟩
    refine Prod.ext (Fin.ext ?_) (Fin.ext ?_)
    · show (16 * t.val + k.val) / 16 = t.val
      omega
    · show (16 * t.val + k.val) % 16 = k.val
      omega
  right_inv b := by
    refine Fin.ext ?_
    show 16 * (b.val / 16) + b.val % 16 = b.val
    omega

theorem sum_col (f : Fin 256 → ℝ) : ∑ q : Fin 4, ∑ a : Fin 64, f (col q a) = ∑ i : Fin 256, f i := by
  rw [← Equiv.sum_comp colEquiv f, Fintype.sum_prod_type]
  rfl

theorem sum_row (f : Fin 1024 → ℝ) : ∑ t : Fin 64, ∑ k : Fin 16, f (row t k) = ∑ b : Fin 1024, f b := by
  rw [← Equiv.sum_comp rowEquiv f, Fintype.sum_prod_type]
  rfl

/-- A rank-3 index is its three coordinates. -/
def idxEquiv3 : SPair.Idx ≃ Fin 1024 × Fin 256 × Fin 256 where
  toFun i := (i 0, i 1, i 2)
  invFun x := ix3 x.1 x.2.1 x.2.2
  left_inv i := (eq_ix3 i).symm
  right_inv _ := rfl

theorem sum_idx3 (f : Fin 1024 → Fin 256 → Fin 256 → ℝ) :
    ∑ i : SPair.Idx, f (i 0) (i 1) (i 2) = ∑ b : Fin 1024, ∑ i : Fin 256, ∑ j : Fin 256, f b i j := by
  calc ∑ i : SPair.Idx, f (i 0) (i 1) (i 2)
      = ∑ i : SPair.Idx, (fun x : Fin 1024 × Fin 256 × Fin 256 => f x.1 x.2.1 x.2.2) (idxEquiv3 i) := rfl
    _ = ∑ x : Fin 1024 × Fin 256 × Fin 256, f x.1 x.2.1 x.2.2 :=
      Equiv.sum_comp idxEquiv3 (fun x : Fin 1024 × Fin 256 × Fin 256 => f x.1 x.2.1 x.2.2)
    _ = ∑ b : Fin 1024, ∑ i : Fin 256, ∑ j : Fin 256, f b i j := by
      rw [Fintype.sum_prod_type]
      refine Finset.sum_congr rfl fun b _ => ?_
      rw [Fintype.sum_prod_type]

/-! ## The two closed forms as real numbers -/

section RealForms
variable (p : SIn.Idx → ℝ) (T M : IVec SIn 32)

/-- The kernel's summand at row `b` and the ordered column pair (`i`, `j`). -/
def kR (b : Fin 1024) (i j : Fin 256) : ℝ :=
  (numR (T (ix2 b i)) * numR (M (ix2 b i))) *
    (lsR (p (ix2 b i) - p (ix2 b j)) * ((1 - numR (T (ix2 b j))) * numR (M (ix2 b j))))

/-- The kernel's summand at row `b` and first column `i`, with the second column summed out. -/
def gR (b : Fin 1024) (i : Fin 256) : ℝ :=
  (numR (T (ix2 b i)) * numR (M (ix2 b i))) *
    ∑ j : Fin 256, lsR (p (ix2 b i) - p (ix2 b j)) * ((1 - numR (T (ix2 b j))) * numR (M (ix2 b j)))

theorem gR_eq (b : Fin 1024) (i : Fin 256) : gR p T M b i = ∑ j : Fin 256, kR p T M b i j := by
  unfold gR kR
  rw [Finset.mul_sum]

/-- One chunk of one block. -/
def chunkR (t : Fin 64) (q : Fin 4) : ℝ := ∑ k : Fin 16, ∑ a : Fin 64, gR p T M (row t k) (col q a)

theorem chunkK_coe (t : Fin 64) (q : Fin 4) :
    chunkK (fun i => (p i : EReal)) T M t q = ((chunkR p T M t q : ℝ) : EReal) := by
  unfold chunkK chunkR gR pos neg
  simp only [coe_sum, EReal.coe_mul, ← ls_coe, EReal.coe_sub, EReal.coe_one, num_coe]

/-- One block: all 16 rows, all 256 first columns. -/
def blockR (t : Fin 64) : ℝ := ∑ k : Fin 16, ∑ i : Fin 256, gR p T M (row t k) i

theorem rawK_coe (t : Fin 64) :
    rawK (fun i => (p i : EReal)) T M t = ((blockR p T M t : ℝ) : EReal) := by
  unfold rawK
  rw [chunkK_coe, chunkK_coe, chunkK_coe, chunkK_coe, ← EReal.coe_zero, ← EReal.coe_add, ← EReal.coe_add,
    ← EReal.coe_add, ← EReal.coe_add]
  congr 1
  have h4 : 0 + chunkR p T M t 0 + chunkR p T M t 1 + chunkR p T M t 2 + chunkR p T M t 3
      = ∑ q : Fin 4, chunkR p T M t q := by
    rw [Fin.sum_univ_four]; ring
  rw [h4]
  unfold chunkR blockR
  rw [Finset.sum_comm]
  refine Finset.sum_congr rfl fun k _ => ?_
  exact sum_col (fun i => gR p T M (row t k) i)

/-- A block's total by its number, 0 past the last block. -/
def blockN (n : ℕ) : ℝ := if h : n < 64 then blockR p T M ⟨n, h⟩ else 0

theorem rawK_coe_nat (n : ℕ) (h : n < 64) :
    rawK (fun i => (p i : EReal)) T M ⟨n, h⟩ = ((blockN p T M n : ℝ) : EReal) := by
  rw [rawK_coe, blockN, dif_pos h]

/-- Repeated subtraction from 0 is the negated sum, every block total being a real number. -/
theorem accK_coe (c : Fin 2) : ∀ (n : ℕ) (h : n < 32),
    accK (fun i => (p i : EReal)) T M c n h
      = ((-(∑ k ∈ Finset.range (n + 1), blockN p T M (32 * c.val + k)) : ℝ) : EReal)
  | 0, h => by
    rw [accK, rawK_coe_nat, ← EReal.coe_zero, ← EReal.coe_sub]
    congr 1
    simp
  | n + 1, h => by
    rw [accK, accK_coe c n (by omega), rawK_coe_nat, ← EReal.coe_sub]
    congr 1
    rw [Finset.sum_range_succ _ (n + 1)]
    ring

theorem kernelVal_coe :
    kernelVal (fun i => (p i : EReal)) T M
      = ((-(∑ b : Fin 1024, ∑ i : Fin 256, gR p T M b i) : ℝ) : EReal) := by
  unfold kernelVal
  rw [accK_coe, accK_coe, zero_add, ← EReal.coe_add]
  congr 1
  have e0 : (0 : Fin 2).val = 0 := rfl
  have e1 : (1 : Fin 2).val = 1 := rfl
  have h64 : ∑ t : Fin 64, blockR p T M t = ∑ k ∈ Finset.range 64, blockN p T M k := by
    rw [← Fin.sum_univ_eq_sum_range]
    refine Finset.sum_congr rfl fun t _ => ?_
    rw [blockN, dif_pos t.isLt]
  have hsplit : ∑ k ∈ Finset.range 64, blockN p T M k
      = ∑ k ∈ Finset.range 32, blockN p T M k + ∑ k ∈ Finset.range 32, blockN p T M (32 + k) :=
    Finset.sum_range_add _ 32 32
  have hrow : ∑ t : Fin 64, blockR p T M t = ∑ b : Fin 1024, ∑ i : Fin 256, gR p T M b i :=
    sum_row (fun b => ∑ i : Fin 256, gR p T M b i)
  rw [← hrow, h64, hsplit, e0, e1]
  simp only [Nat.mul_zero, Nat.zero_add, Nat.mul_one]
  ring

/-- The reference's term at row `b` and the column pair (`i`, `j`). -/
def pairR (b : Fin 1024) (i j : Fin 256) : ℝ :=
  lsR ((p (ix2 b i) - p (ix2 b j)) * (numR (T (ix2 b i)) - numR (T (ix2 b j))))
    * (((numR (T (ix2 b i)) - numR (T (ix2 b j))) * (numR (M (ix2 b i)) * numR (M (ix2 b j))))
        * ((numR (T (ix2 b i)) - numR (T (ix2 b j))) * (numR (M (ix2 b i)) * numR (M (ix2 b j)))))

theorem pairTerm_coe (hM : ∀ i, M i = 0#32 ∨ M i = 1#32) (idx : SPair.Idx) :
    pairTerm (fun i => (p i : EReal)) T M idx = ((pairR p T M (idx 0) (idx 1) (idx 2) : ℝ) : EReal) := by
  unfold pairTerm pairR
  simp only [num_coe, numR_and (hM _) (hM _), EReal.coe_mul, EReal.coe_sub, ← ls_coe]

/-- With labels and flags in {0, 1}: the squared weight is 1 exactly when one label is 1, the other 0 and both flags
    are 1; the sign of the label difference says which of the two ordered pairs the term belongs to. -/
theorem pair_split (l : ℝ → ℝ) (x ti tj mi mj : ℝ) (hti : ti = 0 ∨ ti = 1) (htj : tj = 0 ∨ tj = 1)
    (hmi : mi = 0 ∨ mi = 1) (hmj : mj = 0 ∨ mj = 1) :
    l (x * (ti - tj)) * (((ti - tj) * (mi * mj)) * ((ti - tj) * (mi * mj)))
      = (ti * mi) * (l x * ((1 - tj) * mj)) + (tj * mj) * (l (-x) * ((1 - ti) * mi)) := by
  rcases hti with rfl | rfl <;> rcases htj with rfl | rfl <;> rcases hmi with rfl | rfl <;>
    rcases hmj with rfl | rfl <;> norm_num

theorem pairR_eq (hT : ∀ i, T i = 0#32 ∨ T i = 1#32) (hM : ∀ i, M i = 0#32 ∨ M i = 1#32)
    (b : Fin 1024) (i j : Fin 256) : pairR p T M b i j = kR p T M b i j + kR p T M b j i := by
  unfold pairR kR
  rw [pair_split lsR _ _ _ _ _ (numR_01 (hT _)) (numR_01 (hT _)) (numR_01 (hM _)) (numR_01 (hM _)), neg_sub]

theorem kR_diag (hT : ∀ i, T i = 0#32 ∨ T i = 1#32) (b : Fin 1024) (i : Fin 256) : kR p T M b i i = 0 := by
  unfold kR
  rcases numR_01 (hT (ix2 b i)) with h | h <;> rw [h] <;> ring

/-- Per row, the reference's sum over column pairs i < j is the kernel's sum over all ordered pairs. -/
theorem row_identity (hT : ∀ i, T i = 0#32 ∨ T i = 1#32) (hM : ∀ i, M i = 0#32 ∨ M i = 1#32) (b : Fin 1024) :
    (∑ i : Fin 256, ∑ j : Fin 256, if i.val < j.val then pairR p T M b i j else 0)
      = ∑ i : Fin 256, gR p T M b i := by
  simp only [pairR_eq p T M hT hM, gR_eq]
  exact sum_lt_symm (fun i j => kR p T M b i j) (kR_diag p T M hT b)

theorem refVal_coe (hT : ∀ i, T i = 0#32 ∨ T i = 1#32) (hM : ∀ i, M i = 0#32 ∨ M i = 1#32) :
    refVal (fun i => (p i : EReal)) T M
      = ((-(∑ b : Fin 1024, ∑ i : Fin 256, gR p T M b i) : ℝ) : EReal) := by
  have hsum : (∑ idx : SPair.Idx,
        if (idx 1).val < (idx 2).val then pairTerm (fun i => (p i : EReal)) T M idx else 0)
      = ((∑ b : Fin 1024, ∑ i : Fin 256, ∑ j : Fin 256,
          (if i.val < j.val then pairR p T M b i j else 0) : ℝ) : EReal) := by
    rw [← sum_idx3 (fun b i j => if i.val < j.val then pairR p T M b i j else 0), coe_sum]
    refine Finset.sum_congr rfl fun idx _ => ?_
    rw [pairTerm_coe p T M hM idx, coe_ite]
  unfold refVal
  rw [hsum, zero_add, ← EReal.coe_neg]
  congr 2
  exact Finset.sum_congr rfl fun b _ => row_identity p T M hT hM b

end RealForms

/-- The kernel's and the reference's closed forms agree on finite scores with labels and validity flags in {0, 1}. -/
theorem kernelVal_eq_refVal (P : FVec Ideal SIn .f32) (T M : IVec SIn 32)
    (hP : ∀ i, ∃ r : ℝ, P i = (r : EReal))
    (hT : ∀ i, T i = 0#32 ∨ T i = 1#32)
    (hM : ∀ i, M i = 0#32 ∨ M i = 1#32) :
    kernelVal P T M = refVal P T M := by
  choose p hp using hP
  obtain rfl : P = fun i => (p i : EReal) := funext hp
  rw [kernelVal_coe, refVal_coe p T M hT hM]

end Cert.PairLoss

end
-- ==== Proof.PreDecode.lean ====
/-
  What the precondition says of the three argument arrays: every score is a real number (its absolute value is
  below +∞), and every label and every validity flag is the word 0 or the word 1.

  The precondition is one bit: the conjunction of three "for all positions" tests, each an and-reduction of an
  array of bits over both axes.  The conjunction being 1 makes each of the three reductions 1; a reduction by
  "and" onto a single result being 1 makes every bit of its operand 1; and a single bit of each operand is read
  back as a fact about one entry:
    * scores: the bit is the comparison |x| < c where c is the pattern of +∞, so x is neither +∞ nor −∞;
    * labels, flags: the bit is (w = 0) or (w = 1) on 32-bit words.
-/
import proofs.«402266_j6811818132220_3_alg».proof.Pre_finite_inputs
import proofs.«402266_j6811818132220_3_alg».proof.Proof.Spec
import Idealize.ShloMosaic.Lib.ReduceAll
import Idealize.ShloMosaic.Lib.StableHlo.Predicate

noncomputable section

namespace Cert.PairLoss

open Idealize.ShloMosaic Idealize.ShloMosaic.ValueIdx

/-- The scalar shape has exactly one index (a function out of the empty set of axes). -/
local instance : Subsingleton Cert.Pre_finite_inputs.S_.Idx :=
  ⟨fun a b => funext fun d => d.elim0⟩

/-- The pattern 0x7F800000 denotes +∞. -/
private theorem ofBits_inf : Ideal.ofBits .f32 0x7F800000#32 = (⊤ : EReal) := by
  simp [Ideal.ofBits, Ideal.ieee]

/-- An extended real with |x| = max x (−x) strictly below +∞ is a real number: at +∞ the maximum is +∞, and at
    −∞ its negation +∞ is, so in both cases the strict comparison fails. -/
private theorem real_of_abs_lt_inf (x : EReal)
    (hx : Ideal.cmp .olt (max x (-x)) (Ideal.ofBits .f32 0x7F800000#32) = 1#1) : ∃ r : ℝ, x = (r : EReal) := by
  rw [ofBits_inf] at hx
  induction x using EReal.rec with
  | bot => simp [Ideal.cmp] at hx
  | coe r => exact ⟨r, rfl⟩
  | top => simp [Ideal.cmp] at hx

/-- A word for which "(w = 0) or (w = 1)" holds as a bit is 0 or 1. -/
private theorem zero_or_one_of_bit (w : BitVec 32)
    (hw : IntOp.ori (IntOp.cmpi .eq w 0#32) (IntOp.cmpi .eq w 1#32) = 1#1) : w = 0#32 ∨ w = 1#32 := by
  rcases IntOp.ori_eq_one.1 hw with h0 | h1
  · exact Or.inl (StableHlo.Predicate.cmpi_eq_iff.1 h0)
  · exact Or.inr (StableHlo.Predicate.cmpi_eq_iff.1 h1)

/-- The printed precondition, read: finite scores, labels and validity flags in {0, 1}. -/
theorem of_pre [Cert.Pre_finite_inputs.Facts] (P : FVec Ideal SIn .f32) (T M : IVec SIn 32)
    (h : Cert.Pre_finite_inputs.fn (F := Ideal) P T M = fun _ => 1#1) :
    (∀ i, ∃ r : ℝ, P i = (r : EReal)) ∧ (∀ i, T i = 0#32 ∨ T i = 1#32) ∧ (∀ i, M i = 0#32 ∨ M i = 1#32) := by
  have h0 := congrFun h ValueIdx.ix0
  dsimp only [Cert.Pre_finite_inputs.fn, Cert.Pre_finite_inputs.fn_part1] at h0
  obtain ⟨hPT, hM⟩ := IntOp.andi_eq_one.1 h0
  obtain ⟨hP, hT⟩ := IntOp.andi_eq_one.1 hPT
  refine ⟨fun i => ?_, fun i => ?_, fun i => ?_⟩
  · exact real_of_abs_lt_inf (P i) (Host.reduce_andi_all _ _ _ _ _ hP i)
  · exact zero_or_one_of_bit (T i) (Host.reduce_andi_all _ _ _ _ _ hT i)
  · exact zero_or_one_of_bit (M i) (Host.reduce_andi_all _ _ _ _ _ hM i)

end Cert.PairLoss

end
-- ==== Proof.KBlock.lean ====
/-
  One grid point of the kernel, read as numbers.  A point sees a block of 16 rows of each argument array
  (scores `x0`, labels `x1`, validity `x2`, each [16, 256]) and the per-core accumulator.  Its body computes the
  block's total `rawBlk` — over four column chunks of 64, the sum over rows `k` and chunk columns `a` of
  (t·m)(k, a) · Σ_j ls(p(k, a) − p(k, j)) · ((1 − t)·m)(k, j) — and leaves in the accumulator its previous contents
  minus that total (0 minus it at a core's first point, where the accumulator is first reset).  At a core's last
  point the output block [8, 128] receives the new accumulator at entry (0, 0) and 0 elsewhere.
-/
import proofs.«402266_j6811818132220_3_alg».proof.Proof.Gen.KernelIdeal.Frame
import proofs.«402266_j6811818132220_3_alg».proof.Proof.Spec
import Idealize.ShloMosaic.Lib.Pipeline.Value
import Idealize.ShloMosaic.Lib.ValueLayout
import Idealize.ShloMosaic.Lib.Tactic

set_option maxRecDepth 16384

noncomputable section

open scoped BigOperators

namespace Cert.KernelIdeal.Hand

open Idealize.ShloMosaic Idealize.ShloMosaic.ValueIdx Idealize.ShloMosaic.TcCoe Idealize.SL.Sem
open Cert.KernelIdeal Cert.KernelIdeal.Gen Cert.PairLoss

/-- One column chunk's sum over a block of 16 rows, from the block's three input pieces. -/
def chunkBlk (x0 : Vec Ideal S16x256 .f32) (x1 : Vec Ideal S16x256 .i32) (x2 : Vec Ideal S16x256 .i32) (q : Fin 4) : EReal :=
  ∑ k : Fin 16, ∑ a : Fin 64, (num (x1 (ix2 k (col q a))) * num (x2 (ix2 k (col q a)))) *
    ∑ j : Fin 256, ls ((x0 (ix2 k (col q a)) : EReal) - (x0 (ix2 k j) : EReal)) * ((1 - num (x1 (ix2 k j))) * num (x2 (ix2 k j)))

/-- The block's total: the four chunks added left to right onto 0. -/
def rawBlk (x0 : Vec Ideal S16x256 .f32) (x1 : Vec Ideal S16x256 .i32) (x2 : Vec Ideal S16x256 .i32) : EReal :=
  (((0 + chunkBlk x0 x1 x2 0) + chunkBlk x0 x1 x2 1) + chunkBlk x0 x1 x2 2) + chunkBlk x0 x1 x2 3

section Pieces
variable {F : FTy → Type} [FloatOps F]

/-- The zero offsets, as the constant function. -/
theorem hz2 : (![0, 0] : Fin 2 → Nat) = fun _ => 0 := funext fun a => by fin_cases a <;> rfl

/-- The accumulator update as a pure term of the three blocks and the loaded accumulator. -/
def upd (x0 : Vec F S16x256 .f32) (x1 : Vec F S16x256 .i32) (x2 : Vec F S16x256 .i32) (acc : Vec F S1x1 .f32) : FVec F S1x1 .f32 :=
  k0_pay1 (k0_pay7 x1 x2)
    (k0_pay14 (k0_pay7 x1 x2)
      (k0_pay11 x0 (k0_pay6 x1 x2) (k0_pay7 x1 x2) (k0_pay8 (F := F)) (k0_pay9 x1 x2) (k0_pay10 x0 x1 x2))
      (k0_pay12 (k0_pay6 x1 x2)) (k0_pay13 x0))
    (k0_pay15 (k0_pay6 x1 x2)) (k0_pay16 x0) (k0_pay17 (F := F)) acc

/-- A middle point leaves in the accumulator the update of what it held on entry. -/
theorem pieceB (c : Dev nD) (i : grid0.Coords) (arg2 : Memref sig .tc .vmem S16x256 .f32) (harg2 : arg2.IsWhole) (arg3 : Memref sig .tc .vmem S16x256 .i32) (harg3 : arg3.IsWhole) (arg4 : Memref sig .tc .vmem S16x256 .i32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i) (x0 : Vec F S16x256 .f32) (x1 : Vec F S16x256 .i32) (x2 : Vec F S16x256 .i32) (xs0 : Vec F S1x1 .f32) :
    sout0_B_0 c i arg2 harg2 arg3 harg3 arg4 harg4 arg5 harg5 arg6 harg6 hc0 hc1 x0 x1 x2 xs0 = upd x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread, View.ld_unit_zero (S := S1x1) hz2, View.ld_unit_zero (S := S16x256) hz2]
  rfl

/-- A core's first point leaves the update of the zero block it has just stored. -/
theorem pieceA (c : Dev nD) (i : grid0.Coords) (arg2 : Memref sig .tc .vmem S16x256 .f32) (harg2 : arg2.IsWhole) (arg3 : Memref sig .tc .vmem S16x256 .i32) (harg3 : arg3.IsWhole) (arg4 : Memref sig .tc .vmem S16x256 .i32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i) (x0 : Vec F S16x256 .f32) (x1 : Vec F S16x256 .i32) (x2 : Vec F S16x256 .i32) :
    sout0_A_0 c i arg2 harg2 arg3 harg3 arg4 harg4 arg5 harg5 arg6 harg6 hc0 hc1 x0 x1 x2 = upd x0 x1 x2 (k0_pay3 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz2]
  simp only [View.readAt_eq_ld, harg2.read_unread, harg3.read_unread, harg4.read_unread, harg6.read_unread, View.ld_unit_zero (S := S1x1) hz2, View.ld_unit_zero (S := S16x256) hz2, View.readCov_unit_zero (S := S1x1) _ hz2]
  rfl

/-- A core's last point leaves the same update in the accumulator … -/
theorem pieceC (c : Dev nD) (i : grid0.Coords) (arg2 : Memref sig .tc .vmem S16x256 .f32) (harg2 : arg2.IsWhole) (arg3 : Memref sig .tc .vmem S16x256 .i32) (harg3 : arg3.IsWhole) (arg4 : Memref sig .tc .vmem S16x256 .i32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i) (x0 : Vec F S16x256 .f32) (x1 : Vec F S16x256 .i32) (x2 : Vec F S16x256 .i32) (xs0 : Vec F S1x1 .f32) :
    sout0_C_0 c i arg2 harg2 arg3 harg3 arg4 harg4 arg5 harg5 arg6 harg6 hc0 hc1 x0 x1 x2 xs0 = upd x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.ld_unit_zero (S := S1x1) hz2, View.ld_unit_zero (S := S16x256) hz2]
  rfl

/-- … and in the output block the block built from that new accumulator. -/
theorem pieceC3 (c : Dev nD) (i : grid0.Coords) (arg2 : Memref sig .tc .vmem S16x256 .f32) (harg2 : arg2.IsWhole) (arg3 : Memref sig .tc .vmem S16x256 .i32) (harg3 : arg3.IsWhole) (arg4 : Memref sig .tc .vmem S16x256 .i32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i) (x0 : Vec F S16x256 .f32) (x1 : Vec F S16x256 .i32) (x2 : Vec F S16x256 .i32) (xs0 : Vec F S1x1 .f32) :
    out0_C_3 c i arg2 harg2 arg3 harg3 arg4 harg4 arg5 harg5 arg6 harg6 hc0 hc1 x0 x1 x2 xs0 = k0_pay2 (upd x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.ld_unit_zero (S := S1x1) hz2, View.ld_unit_zero (S := S16x256) hz2, View.readCov_unit_zero (S := S1x1) _ hz2]
  rfl

end Pieces

/-! ## Layout operations of this body, read at coordinates -/

section Layout
variable {α : Type}

/-- A matrix given a trailing unit axis reads, at (i, j, u), the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A matrix given a middle unit axis reads, at (i, u, j), the matrix at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector given a trailing unit axis reads, at (i, u), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The chunk's columns spread along the last axis: (k, a, j) reads (k, a, 0). -/
theorem bcast_col_apply (v : S16x64x1.Idx → α) (h : S16x64x1.Broadcasts S16x64x256) (k : Fin 16) (a : Fin 64) (j : Fin 256) :
    broadcastTo S16x64x256 v h (ix3 k a j) = v (ix3 k a (0 : Fin 1)) :=
  broadcastTo_apply v h (ix3 k a j) (ix3 k a (0 : Fin 1)) fun ax => by
    match ax with
    | ⟨0, _⟩ => rfl
    | ⟨1, _⟩ => rfl
    | ⟨2, _⟩ => rfl

/-- A row spread along the middle axis: (k, a, j) reads (k, 0, j). -/
theorem bcast_row_apply (v : S16x1x256.Idx → α) (h : S16x1x256.Broadcasts S16x64x256) (k : Fin 16) (a : Fin 64) (j : Fin 256) :
    broadcastTo S16x64x256 v h (ix3 k a j) = v (ix3 k (0 : Fin 1) j) :=
  broadcastTo_apply v h (ix3 k a j) (ix3 k (0 : Fin 1) j) fun ax => by
    match ax with
    | ⟨0, _⟩ => rfl
    | ⟨1, _⟩ => rfl
    | ⟨2, _⟩ => rfl

end Layout

/-! ## The three sums, read at coordinates -/

/-- The sum over the last axis at (k, a) is the sum over j of the entries (k, a, j). -/
theorem red2_apply (v : FVec Ideal S16x64x256 .f32) (h : S16x64x256.Reduces [2] S16x64) (hφ : FKind.Formats .f32)
    (hacc : (0x00000000#32 : BitVec 32) = FKind.add.neutral .f32 hφ) (k : Fin 16) (a : Fin 64) :
    multiReduction (F := Ideal) .add [2] S16x64 v 0x00000000#32 h hφ hacc (ix2 k a) = ∑ j : Fin 256, v (ix3 k a j) :=
  (Ideal.multiReduction_add_single v 0x00000000#32 h hφ hacc (ix2 k a)).trans
    (Finset.sum_congr rfl fun j _ => congrArg v (funext fun c => by
      match c with
      | ⟨0, _⟩ => rfl
      | ⟨1, _⟩ => rfl
      | ⟨2, _⟩ => rfl))

/-- The sum over the columns at row k is the sum over a of the entries (k, a). -/
theorem red1_apply (v : FVec Ideal S16x64 .f32) (h : S16x64.Reduces [1] S16) (hφ : FKind.Formats .f32)
    (hacc : (0x00000000#32 : BitVec 32) = FKind.add.neutral .f32 hφ) (k : Fin 16) :
    multiReduction (F := Ideal) .add [1] S16 v 0x00000000#32 h hφ hacc (ix1 k) = ∑ a : Fin 64, v (ix2 k a) :=
  (Ideal.multiReduction_add_single v 0x00000000#32 h hφ hacc (ix1 k)).trans
    (Finset.sum_congr rfl fun a _ => congrArg v (funext fun c => by
      match c with
      | ⟨0, _⟩ => rfl
      | ⟨1, _⟩ => rfl))

/-- The sum over the rows is the sum over k of the entries (k, u). -/
theorem red0_apply (v : FVec Ideal S16x1 .f32) (h : S16x1.Reduces [0] S1) (hφ : FKind.Formats .f32)
    (hacc : (0x00000000#32 : BitVec 32) = FKind.add.neutral .f32 hφ) (u : Fin 1) :
    multiReduction (F := Ideal) .add [0] S1 v 0x00000000#32 h hφ hacc (ix1 u) = ∑ k : Fin 16, v (ix2 k u) :=
  (Ideal.multiReduction_add_single v 0x00000000#32 h hφ hacc (ix1 u)).trans
    (Finset.sum_congr rfl fun k _ => congrArg v (funext fun c => by
      match c with
      | ⟨0, _⟩ => rfl
      | ⟨1, _⟩ => rfl))

/-! ## The body's arithmetic in stages -/

section Stages
variable {F : FTy → Type} [FloatOps F]

/-- Minus the pairwise differences: entry (k, a, j) is 0 − (s(k, a) − p(k, j)) for a chunk's scores `s`. -/
def ndiff (sl : FVec F S16x64 .f32) (x0 : Vec F S16x256 .f32) : FVec F S16x64x256 .f32 :=
  subf (broadcast S16x64x256 (Scalar.ofBits .f32 0x00000000#32))
    (subf (broadcastTo S16x64x256 (shapeCast S16x64x1 sl shapeCasts_S16x64_S16x64x1) broadcasts_S16x64x1_S16x64x256)
      (broadcastTo S16x64x256 (shapeCast S16x1x256 x0 shapeCasts_S16x256_S16x1x256) broadcasts_S16x1x256_S16x64x256))

/-- The softplus of an entry `y`: max(y, 0) + log(1 + e^{−|y − 0|}), behind a select on `y − 0 ≠ y − 0`. -/
def spl (nd : FVec F S16x64x256 .f32) : FVec F S16x64x256 .f32 :=
  select (cmpf .one (subf nd (broadcast S16x64x256 (Scalar.ofBits .f32 0x00000000#32))) (subf nd (broadcast S16x64x256 (Scalar.ofBits .f32 0x00000000#32))))
    (addf nd (broadcast S16x64x256 (Scalar.ofBits .f32 0x00000000#32)))
    (addf (maximumf nd (broadcast S16x64x256 (Scalar.ofBits .f32 0x00000000#32)))
      (log1p (exp (subf (broadcast S16x64x256 (Scalar.ofBits .f32 0x00000000#32))
        (absf (subf nd (broadcast S16x64x256 (Scalar.ofBits .f32 0x00000000#32))))))))

/-- (z − softplus) times the second weights spread along rows, summed over the last axis. -/
def inner (z sp : FVec F S16x64x256 .f32) (v11 : FVec F S16x256 .f32) : FVec F S16x64 .f32 :=
  multiReduction .add [2] S16x64
    (mulf (subf z sp) (broadcastTo S16x64x256 (shapeCast S16x1x256 v11 shapeCasts_S16x256_S16x1x256) broadcasts_S16x1x256_S16x64x256))
    0x00000000#32 reduces_S16x64x256_S16x64 (.inl rfl) rfl

/-- A chunk's contribution added onto the running value: first weights times the inner sums, summed over columns then rows. -/
def addChunk (acc : FVec F S1x1 .f32) (pos inn : FVec F S16x64 .f32) : FVec F S1x1 .f32 :=
  addf acc (shapeCast S1x1
    (multiReduction .add [0] S1
      (shapeCast S16x1 (multiReduction .add [1] S16 (mulf pos inn) 0x00000000#32 reduces_S16x64_S16 (.inl rfl) rfl) shapeCasts_S16_S16x1)
      0x00000000#32 reduces_S16x1_S1 (.inl rfl) rfl) shapeCasts_S1_S1x1)

/-- The update is: loaded accumulator minus the four chunks added in turn onto the zero block. -/
theorem upd_eq (x0 : Vec F S16x256 .f32) (x1 : Vec F S16x256 .i32) (x2 : Vec F S16x256 .i32) (acc : Vec F S1x1 .f32) :
    upd x0 x1 x2 acc = shapeCast S1x1 (subf acc
      (addChunk (addChunk (addChunk (addChunk (k0_pay8 (F := F))
        (extractStridedSlice S16x64 ![0, 0] (k0_pay6 x1 x2) slices_S16x256_o0_0_S16x64)
        (inner (broadcast S16x64x256 (Scalar.ofBits .f32 0x00000000#32)) (spl (ndiff (extractStridedSlice S16x64 ![0, 0] x0 slices_S16x256_o0_0_S16x64) x0)) (k0_pay7 x1 x2)))
        (extractStridedSlice S16x64 ![0, 64] (k0_pay6 x1 x2) slices_S16x256_o0_64_S16x64)
        (inner (broadcast S16x64x256 (Scalar.ofBits .f32 0x00000000#32)) (spl (ndiff (extractStridedSlice S16x64 ![0, 64] x0 slices_S16x256_o0_64_S16x64) x0)) (k0_pay7 x1 x2)))
        (extractStridedSlice S16x64 ![0, 128] (k0_pay6 x1 x2) slices_S16x256_o0_128_S16x64)
        (inner (broadcast S16x64x256 (Scalar.ofBits .f32 0x00000000#32)) (spl (ndiff (extractStridedSlice S16x64 ![0, 128] x0 slices_S16x256_o0_128_S16x64) x0)) (k0_pay7 x1 x2)))
        (extractStridedSlice S16x64 ![0, 192] (k0_pay6 x1 x2) slices_S16x256_o0_192_S16x64)
        (inner (broadcast S16x64x256 (Scalar.ofBits .f32 0x00000000#32)) (spl (ndiff (extractStridedSlice S16x64 ![0, 192] x0 slices_S16x256_o0_192_S16x64) x0)) (k0_pay7 x1 x2))))
      shapeCasts_S1x1_S1x1 := rfl

end Stages

/-! ## The stages read at coordinates, over the extended reals -/

/-- The word of 1.0 denotes 1. -/
theorem one_f32 : Ideal.ofBits .f32 0x3F800000#32 = 1 := by
  simp [Ideal.ofBits, Ideal.ieee]
  rw [← EReal.coe_mul]
  norm_num

/-- "x ≠ x" is never so. -/
theorem cmp_one_self (x : EReal) : Ideal.cmp .one x x = 0#1 := by
  simp [Ideal.cmp]

/-- Entry (k, a, j) of the negated differences is −(s(k, a) − p(k, j)). -/
theorem ndiff_apply (sl : FVec Ideal S16x64 .f32) (x0 : Vec Ideal S16x256 .f32) (k : Fin 16) (a : Fin 64) (j : Fin 256) :
    ndiff sl x0 (ix3 k a j) = -((sl (ix2 k a) : EReal) - (x0 (ix2 k j) : EReal)) := by
  unfold ndiff
  rw [subf_apply, subf_apply, broadcast_apply, bcast_col_apply, bcast_row_apply, shapeCast_ab_ab1_apply, shapeCast_ab_a1b_apply]
  show Ideal.ofBits .f32 0x00000000#32 - _ = _
  rw [Ideal.ofBits_zero_f32, zero_sub]

/-- The select is dead (no extended real differs from itself), so an entry is the softplus max(y, 0) + log(1 + e^{−|y|}). -/
theorem spl_apply (nd : FVec Ideal S16x64x256 .f32) (i : S16x64x256.Idx) :
    spl nd i = max (nd i : EReal) 0 + Ideal.log1p (Ideal.exp (-(max (nd i : EReal) (-(nd i : EReal))))) := by
  unfold spl
  rw [select_apply, cmpf_apply]
  show Scalar.select (Ideal.cmp .one _ _) _ _ = _
  rw [cmp_one_self, select_zero]
  show max (nd i : EReal) (Ideal.ofBits .f32 0x00000000#32) + Ideal.log1p (Ideal.exp (Ideal.ofBits .f32 0x00000000#32 - max ((nd i : EReal) - Ideal.ofBits .f32 0x00000000#32) (-((nd i : EReal) - Ideal.ofBits .f32 0x00000000#32)))) = _
  rw [Ideal.ofBits_zero_f32, zero_sub, sub_zero]

/-- The inner sum at (k, a): Σ_j ls(s(k, a) − p(k, j)) · w(k, j) for second weights `w`. -/
theorem inner_apply (sl : FVec Ideal S16x64 .f32) (x0 : Vec Ideal S16x256 .f32) (v11 : FVec Ideal S16x256 .f32) (k : Fin 16) (a : Fin 64) :
    inner (broadcast S16x64x256 (Scalar.ofBits .f32 0x00000000#32)) (spl (ndiff sl x0)) v11 (ix2 k a)
      = ∑ j : Fin 256, ls ((sl (ix2 k a) : EReal) - (x0 (ix2 k j) : EReal)) * (v11 (ix2 k j) : EReal) := by
  unfold inner
  refine (red2_apply _ _ _ _ k a).trans (Finset.sum_congr rfl fun j _ => ?_)
  rw [mulf_apply, subf_apply, broadcast_apply, bcast_row_apply, shapeCast_ab_a1b_apply, spl_apply, ndiff_apply]
  show (Ideal.ofBits .f32 0x00000000#32 - _) * _ = _
  rw [Ideal.ofBits_zero_f32, zero_sub]
  rfl

/-- The running value after a chunk: what it was plus Σ_k Σ_a first weight (k, a) · inner sum (k, a). -/
theorem addChunk_apply (acc : FVec Ideal S1x1 .f32) (pos inn : FVec Ideal S16x64 .f32) :
    addChunk acc pos inn (ix2 (0 : Fin 1) (0 : Fin 1))
      = (acc (ix2 (0 : Fin 1) (0 : Fin 1)) : EReal) + ∑ k : Fin 16, ∑ a : Fin 64, (pos (ix2 k a) : EReal) * (inn (ix2 k a) : EReal) := by
  unfold addChunk
  rw [addf_apply, shapeCast_a_1a_apply]
  refine congrArg (_ + ·) ((red0_apply _ _ _ _ 0).trans (Finset.sum_congr rfl fun k _ => ?_))
  rw [shapeCast_a_a1_apply]
  refine (red1_apply _ _ _ _ k).trans (Finset.sum_congr rfl fun a _ => ?_)
  rw [mulf_apply]

/-- The first weights: label times validity, as numbers. -/
theorem pos_apply (x1 x2 : Vec Ideal S16x256 .i32) (k : Fin 16) (c : Fin 256) :
    k0_pay6 (F := Ideal) x1 x2 (ix2 k c) = num (x1 (ix2 k c)) * num (x2 (ix2 k c)) := rfl

/-- The second weights: one minus label, times validity. -/
theorem neg_apply (x1 x2 : Vec Ideal S16x256 .i32) (k : Fin 16) (c : Fin 256) :
    k0_pay7 (F := Ideal) x1 x2 (ix2 k c) = (1 - num (x1 (ix2 k c))) * num (x2 (ix2 k c)) := by
  show (Ideal.ofBits .f32 0x3F800000#32 - num _) * num _ = _
  rw [one_f32]

/-- The running value starts at 0. -/
theorem zero_apply (y : S1x1.Idx) : k0_pay8 (F := Ideal) y = 0 := Ideal.ofBits_zero_f32

/-- One chunk's double sum is the chunk of the closed form. -/
theorem chunk_eq (q : Fin 4) (o : Nat) (ho : o = 64 * q.val) (h : S16x256.Slices ![0, o] S16x64)
    (x0 : Vec Ideal S16x256 .f32) (x1 : Vec Ideal S16x256 .i32) (x2 : Vec Ideal S16x256 .i32) :
    ∑ k : Fin 16, ∑ a : Fin 64, (extractStridedSlice S16x64 ![0, o] (k0_pay6 (F := Ideal) x1 x2) h (ix2 k a) : EReal)
        * (inner (broadcast S16x64x256 (Scalar.ofBits .f32 0x00000000#32)) (spl (ndiff (extractStridedSlice S16x64 ![0, o] x0 h) x0)) (k0_pay7 (F := Ideal) x1 x2) (ix2 k a) : EReal)
      = chunkBlk x0 x1 x2 q := by
  unfold chunkBlk
  refine Finset.sum_congr rfl fun k _ => Finset.sum_congr rfl fun a _ => ?_
  have hc : (col q a).val = o + a.val := by subst ho; rfl
  rw [inner_apply, slice2_axis1_apply o _ h k a (col q a) hc, slice2_axis1_apply o _ h k a (col q a) hc, pos_apply]
  refine congrArg (_ * ·) (Finset.sum_congr rfl fun j _ => ?_)
  rw [neg_apply]

/-- The update at the accumulator's one entry: what was loaded, minus the block's total. -/
theorem upd_apply (x0 : Vec Ideal S16x256 .f32) (x1 : Vec Ideal S16x256 .i32) (x2 : Vec Ideal S16x256 .i32) (acc : Vec Ideal S1x1 .f32) :
    upd x0 x1 x2 acc (ix2 (0 : Fin 1) (0 : Fin 1)) = (acc (ix2 (0 : Fin 1) (0 : Fin 1)) : EReal) - rawBlk x0 x1 x2 := by
  rw [upd_eq, shapeCast_self, subf_apply]
  refine congrArg (_ - ·) ?_
  unfold rawBlk
  rw [addChunk_apply, addChunk_apply, addChunk_apply, addChunk_apply, zero_apply,
    chunk_eq 0 0 rfl, chunk_eq 1 64 rfl, chunk_eq 2 128 rfl, chunk_eq 3 192 rfl]

/-- The accumulator has one entry. -/
theorem idx11 (y : S1x1.Idx) : y = ix2 (0 : Fin 1) (0 : Fin 1) := by
  funext a
  match a with
  | ⟨0, h⟩ =>
    have h0 : (y ⟨0, h⟩).val < 1 := (y ⟨0, h⟩).isLt
    exact Fin.ext (show (y ⟨0, h⟩).val = 0 by omega)
  | ⟨1, h⟩ =>
    have h0 : (y ⟨1, h⟩).val < 1 := (y ⟨1, h⟩).isLt
    exact Fin.ext (show (y ⟨1, h⟩).val = 0 by omega)

/-- The reset stores 0. -/
theorem reset_apply (y : S1x1.Idx) : k0_pay3 (F := Ideal) y = 0 := Ideal.ofBits_zero_f32

/-! ## The output block -/

/-- A word compared with 0 for equality: the bit of "the number is 0", for numbers below 2³². -/
theorem cmpi_eq_zero (n : Nat) (hn : n < 2 ^ 32) : IntOp.cmpi .eq (BitVec.ofNat 32 n) 0#32 = if n = 0 then 1#1 else 0#1 := by
  by_cases h : n = 0
  · subst h; rfl
  · rw [if_neg h]
    have hne : (BitVec.ofNat 32 n == 0#32) = false := by
      rw [beq_eq_false_iff_ne]
      intro e
      have := congrArg BitVec.toNat e
      simp at this
      omega
    show BitVec.ofBool (BitVec.ofNat 32 n == 0#32) = 0#1
    rw [hne]; rfl

/-- The one entry spread over the output block. -/
theorem bcast11_apply {α : Type} (v : S1x1.Idx → α) (h : S1x1.Broadcasts S8x128) (r : Fin 8) (l : Fin 128) :
    broadcastTo S8x128 v h (ix2 r l) = v (ix2 (0 : Fin 1) (0 : Fin 1)) :=
  broadcastTo_apply v h (ix2 r l) (ix2 (0 : Fin 1) (0 : Fin 1)) fun ax => by
    match ax with
    | ⟨0, _⟩ => rfl
    | ⟨1, _⟩ => rfl

/-- A select on the conjunction of two decided bits is the `if` on the conjunction. -/
theorem sel_and (p q : Prop) [Decidable p] [Decidable q] (A B : EReal) :
    Scalar.select (IntOp.andi (if p then 1#1 else 0#1) (if q then 1#1 else 0#1)) A B = if p ∧ q then A else B := by
  by_cases hp : p
  · by_cases hq : q
    · rw [if_pos hp, if_pos hq, if_pos (And.intro hp hq)]; rfl
    · rw [if_pos hp, if_neg hq, if_neg (fun h : p ∧ q => hq h.2)]; rfl
  · rw [if_neg hp, if_neg (fun h : p ∧ q => hp h.1)]
    by_cases hq : q
    · rw [if_pos hq]; rfl
    · rw [if_neg hq]; rfl

/-- The output block at (r, l): the accumulator's entry where both coordinates are 0, else 0. -/
theorem pay2_apply (v : Vec Ideal S1x1 .f32) (r : Fin 8) (l : Fin 128) :
    k0_pay2 (F := Ideal) v (ix2 r l) = if r.val = 0 ∧ l.val = 0 then (v (ix2 (0 : Fin 1) (0 : Fin 1)) : EReal) else 0 := by
  unfold k0_pay2
  rw [select_apply]
  show Scalar.select (IntOp.andi (IntOp.cmpi .eq (iota .tc S8x128 32 [0] iota_S8x128_d0_w32 (ix2 r l)) 0#32) (IntOp.cmpi .eq (iota .tc S8x128 32 [1] iota_S8x128_d1_w32 (ix2 r l)) 0#32)) (broadcastTo S8x128 (shapeCast S1x1 v shapeCasts_S1x1_S1x1) broadcasts_S1x1_S8x128 (ix2 r l)) (Ideal.ofBits .f32 0x00000000#32) = _
  rw [iota_single_apply, iota_single_apply, Ideal.ofBits_zero_f32, shapeCast_self, bcast11_apply]
  show Scalar.select (IntOp.andi (IntOp.cmpi .eq (BitVec.ofNat 32 r.val) 0#32) (IntOp.cmpi .eq (BitVec.ofNat 32 l.val) 0#32)) _ _ = _
  rw [cmpi_eq_zero _ (by have := r.isLt; omega), cmpi_eq_zero _ (by have := l.isLt; omega)]
  exact sel_and _ _ _ _

/-! ## The four readings -/

/-- A core's first point: the accumulator is reset to 0 and the block's total subtracted. -/
theorem sout0_A_0_eq (c : Dev nD) (i : grid0.Coords) (arg2 : Memref sig .tc .vmem S16x256 .f32) (harg2 : arg2.IsWhole) (arg3 : Memref sig .tc .vmem S16x256 .i32) (harg3 : arg3.IsWhole) (arg4 : Memref sig .tc .vmem S16x256 .i32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i) (x0 : Vec Ideal S16x256 .f32) (x1 : Vec Ideal S16x256 .i32) (x2 : Vec Ideal S16x256 .i32) :
    sout0_A_0 (F := Ideal) c i arg2 harg2 arg3 harg3 arg4 harg4 arg5 harg5 arg6 harg6 hc0 hc1 x0 x1 x2 = fun _ => (0 : EReal) - rawBlk x0 x1 x2 := by
  rw [pieceA]
  funext y
  obtain rfl := idx11 y
  rw [upd_apply, reset_apply]

/-- A middle point: the block's total is subtracted from what the point before left. -/
theorem sout0_B_0_eq (c : Dev nD) (i : grid0.Coords) (arg2 : Memref sig .tc .vmem S16x256 .f32) (harg2 : arg2.IsWhole) (arg3 : Memref sig .tc .vmem S16x256 .i32) (harg3 : arg3.IsWhole) (arg4 : Memref sig .tc .vmem S16x256 .i32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i) (x0 : Vec Ideal S16x256 .f32) (x1 : Vec Ideal S16x256 .i32) (x2 : Vec Ideal S16x256 .i32) (xs0 : Vec Ideal S1x1 .f32) :
    sout0_B_0 (F := Ideal) c i arg2 harg2 arg3 harg3 arg4 harg4 arg5 harg5 arg6 harg6 hc0 hc1 x0 x1 x2 xs0 = fun y => (xs0 y : EReal) - rawBlk x0 x1 x2 := by
  rw [pieceB]
  funext y
  obtain rfl := idx11 y
  exact upd_apply x0 x1 x2 xs0

/-- A core's last point: the same update of the accumulator … -/
theorem sout0_C_0_eq (c : Dev nD) (i : grid0.Coords) (arg2 : Memref sig .tc .vmem S16x256 .f32) (harg2 : arg2.IsWhole) (arg3 : Memref sig .tc .vmem S16x256 .i32) (harg3 : arg3.IsWhole) (arg4 : Memref sig .tc .vmem S16x256 .i32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i) (x0 : Vec Ideal S16x256 .f32) (x1 : Vec Ideal S16x256 .i32) (x2 : Vec Ideal S16x256 .i32) (xs0 : Vec Ideal S1x1 .f32) :
    sout0_C_0 (F := Ideal) c i arg2 harg2 arg3 harg3 arg4 harg4 arg5 harg5 arg6 harg6 hc0 hc1 x0 x1 x2 xs0 = fun y => (xs0 y : EReal) - rawBlk x0 x1 x2 := by
  rw [pieceC]
  funext y
  obtain rfl := idx11 y
  exact upd_apply x0 x1 x2 xs0

/-- … and the output block holds the new accumulator at (0, 0) and 0 everywhere else. -/
theorem out0_C_3_eq (c : Dev nD) (i : grid0.Coords) (arg2 : Memref sig .tc .vmem S16x256 .f32) (harg2 : arg2.IsWhole) (arg3 : Memref sig .tc .vmem S16x256 .i32) (harg3 : arg3.IsWhole) (arg4 : Memref sig .tc .vmem S16x256 .i32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i) (x0 : Vec Ideal S16x256 .f32) (x1 : Vec Ideal S16x256 .i32) (x2 : Vec Ideal S16x256 .i32) (xs0 : Vec Ideal S1x1 .f32) :
    out0_C_3 (F := Ideal) c i arg2 harg2 arg3 harg3 arg4 harg4 arg5 harg5 arg6 harg6 hc0 hc1 x0 x1 x2 xs0
      = fun y => if (y 0).val = 0 ∧ (y 1).val = 0 then (xs0 (ix2 0 0) : EReal) - rawBlk x0 x1 x2 else 0 := by
  rw [pieceC3]
  funext y
  obtain ⟨r, l, rfl⟩ : ∃ (r : Fin 8) (l : Fin 128), y = ix2 r l := ⟨y 0, y 1, eq_ix2 y⟩
  rw [pay2_apply, upd_apply]

end Cert.KernelIdeal.Hand

end
-- ==== Proof.KAccum.lean ====
/-
  The per-core accumulator, point by point.  Grid point t (t = 32·c + n: core c, inner step n) sees rows
  16·t … 16·t + 15 of the three argument arrays, so its block total is `rawK` at t, and by induction along a core's
  32 points the accumulator after point t holds `accK c n`: reset and first subtraction at n = 0, one more
  subtraction at each later point.  At a core's last point (n = 31) the output block receives that final
  accumulator at entry (0, 0) and 0 elsewhere.
-/
import proofs.«402266_j6811818132220_3_alg».proof.Proof.KBlock

set_option maxRecDepth 16384

noncomputable section

open scoped BigOperators

namespace Cert.KernelIdeal.Hand

open Idealize.ShloMosaic Idealize.ShloMosaic.ValueIdx Idealize.ShloMosaic.TcCoe Idealize.SL.Sem
open Cert.KernelIdeal Cert.KernelIdeal.Gen Cert.PairLoss

variable (m : (ℓ : Loc nD τ sig) → Buf (Elt Ideal) ℓ)

/-- The three argument arrays on core `c`'s device: scores, labels, validity. -/
abbrev argP (c : Dev nD) : FVec Ideal SIn .f32 := m ((c.tc : Thread nD τ).loc main_arg0)
abbrev argT (c : Dev nD) : IVec SIn 32 := m ((c.tc : Thread nD τ).loc main_arg1)
abbrev argM (c : Dev nD) : IVec SIn 32 := m ((c.tc : Thread nD τ).loc main_arg2)

/-- The core a grid point belongs to. -/
def coreOf (t : Fin cfg0.N) : Fin 2 := ⟨t.val / 32, by have := t.isLt; have h : cfg0.N = 64 := N_0; omega⟩

/-- The point's block of each argument array. -/
abbrev pblk (c : Dev nD) (t : Fin cfg0.N) : Vec Ideal S16x256 .f32 := iblk m c 0 t
abbrev tblk (c : Dev nD) (t : Fin cfg0.N) : Vec Ideal S16x256 .i32 := iblk m c 1 t
abbrev mblk (c : Dev nD) (t : Fin cfg0.N) : Vec Ideal S16x256 .i32 := iblk m c 2 t

/-- A grid point as a block number below 64. -/
def pt (t : Fin cfg0.N) : Fin 64 := ⟨t.val, lt_of_lt_of_eq t.isLt N_0⟩

/-- Each input window's block index at a point: the point's linear index along rows, 0 along columns. -/
theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = t.val ∧ win0_2.index t (1 : Fin 2) = 0 := by decide +kernel

/-- Entry (k, j) of point t's block of the scores is entry (16·t + k, j) of the array. -/
theorem pblk_apply (c : Dev nD) (t : Fin cfg0.N) (k : Fin 16) (j : Fin 256) :
    pblk m c t (ix2 k j) = argP m c (ix2 (row (pt t) k) j) := by
  show V m c main_arg0 (((cfg0.win 0).blk t).view.emb (ix2 k j)) = V m c main_arg0 (ix2 (row (pt t) k) j)
  refine congrArg (V m c main_arg0) (funext fun a => Fin.ext ?_)
  match a with
  | ⟨0, _⟩ =>
    show win0_0.index t 0 * 16 + 1 * ((ix2 k j : S16x256.Idx) 0).val = ((ix2 (row (pt t) k) j : SIn.Idx) 0).val
    rw [(idx0 t).1]
    show t.val * 16 + 1 * k.val = 16 * t.val + k.val
    omega
  | ⟨1, _⟩ =>
    show win0_0.index t 1 * 256 + 1 * ((ix2 k j : S16x256.Idx) 1).val = ((ix2 (row (pt t) k) j : SIn.Idx) 1).val
    rw [(idx0 t).2]
    show 0 * 256 + 1 * j.val = j.val
    omega

/-- The same for the labels … -/
theorem tblk_apply (c : Dev nD) (t : Fin cfg0.N) (k : Fin 16) (j : Fin 256) :
    tblk m c t (ix2 k j) = argT m c (ix2 (row (pt t) k) j) := by
  show V m c main_arg1 (((cfg0.win 1).blk t).view.emb (ix2 k j)) = V m c main_arg1 (ix2 (row (pt t) k) j)
  refine congrArg (V m c main_arg1) (funext fun a => Fin.ext ?_)
  match a with
  | ⟨0, _⟩ =>
    show win0_1.index t 0 * 16 + 1 * ((ix2 k j : S16x256.Idx) 0).val = ((ix2 (row (pt t) k) j : SIn.Idx) 0).val
    rw [(idx1 t).1]
    show t.val * 16 + 1 * k.val = 16 * t.val + k.val
    omega
  | ⟨1, _⟩ =>
    show win0_1.index t 1 * 256 + 1 * ((ix2 k j : S16x256.Idx) 1).val = ((ix2 (row (pt t) k) j : SIn.Idx) 1).val
    rw [(idx1 t).2]
    show 0 * 256 + 1 * j.val = j.val
    omega

/-- … and for the validity words. -/
theorem mblk_apply (c : Dev nD) (t : Fin cfg0.N) (k : Fin 16) (j : Fin 256) :
    mblk m c t (ix2 k j) = argM m c (ix2 (row (pt t) k) j) := by
  show V m c main_arg2 (((cfg0.win 2).blk t).view.emb (ix2 k j)) = V m c main_arg2 (ix2 (row (pt t) k) j)
  refine congrArg (V m c main_arg2) (funext fun a => Fin.ext ?_)
  match a with
  | ⟨0, _⟩ =>
    show win0_2.index t 0 * 16 + 1 * ((ix2 k j : S16x256.Idx) 0).val = ((ix2 (row (pt t) k) j : SIn.Idx) 0).val
    rw [(idx2 t).1]
    show t.val * 16 + 1 * k.val = 16 * t.val + k.val
    omega
  | ⟨1, _⟩ =>
    show win0_2.index t 1 * 256 + 1 * ((ix2 k j : S16x256.Idx) 1).val = ((ix2 (row (pt t) k) j : SIn.Idx) 1).val
    rw [(idx2 t).2]
    show 0 * 256 + 1 * j.val = j.val
    omega

/-- One chunk of a point's block is the specification's chunk of that block number. -/
theorem chunkBlk_eq (c : Dev nD) (t : Fin cfg0.N) (q : Fin 4) :
    chunkBlk (pblk m c t) (tblk m c t) (mblk m c t) q
      = chunkK (argP m c) (argT m c) (argM m c) (pt t) q := by
  unfold chunkBlk chunkK pos neg
  simp only [pblk_apply, tblk_apply, mblk_apply]

/-- So a point's block total is the specification's total of that block number. -/
theorem rawBlk_eq (c : Dev nD) (t : Fin cfg0.N) :
    rawBlk (pblk m c t) (tblk m c t) (mblk m c t) = rawK (argP m c) (argT m c) (argM m c) (pt t) := by
  unfold rawBlk rawK
  rw [chunkBlk_eq, chunkBlk_eq, chunkBlk_eq, chunkBlk_eq]

section
variable (P : FVec Ideal SIn .f32) (T M : IVec SIn 32)

/-- The accumulator's first equation, at a step known to be 0 and a block number known to be the core's first. -/
theorem accK_first (c : Fin 2) (n : ℕ) (h : n < 32) (hn : n = 0) (b : Fin 64) (hb : b.val = 32 * c.val) :
    accK P T M c n h = 0 - rawK P T M b := by
  subst hn
  obtain ⟨bv, hbv⟩ := b
  have hb' : bv = 32 * c.val := hb
  subst hb'
  rfl

/-- Its second equation, at a step known to be a successor, the previous core and block number given up to equality. -/
theorem accK_next (c c' : Fin 2) (n k : ℕ) (h : n < 32) (hk : k < 32) (hn : n = k + 1) (hc : c' = c)
    (b : Fin 64) (hb : b.val = 32 * c.val + n) :
    accK P T M c n h = accK P T M c' k hk - rawK P T M b := by
  subst hn; subst hc
  obtain ⟨bv, hbv⟩ := b
  have hb' : bv = 32 * c'.val + (k + 1) := hb
  subst hb'
  rfl

end

/-- The invariant, by induction on the point's linear index: a core's first point resets and subtracts once; every
    later point subtracts its block's total from what the point before — of the same core — left. -/
theorem acc_inv_aux (c : Dev nD) : ∀ (n : ℕ) (t : Fin cfg0.N), t.val = n →
    (outsAt0 (F := Ideal) m c t.val t.isLt).2
      = fun _ => accK (argP m c) (argT m c) (argM m c) (coreOf t) (t.val % 32) (Nat.mod_lt _ (by norm_num)) := by
  intro n
  induction n using Nat.strong_induction_on with
  | _ n IH =>
    intro t htn
    have hN : t.val < 64 := lt_of_lt_of_eq t.isLt N_0
    by_cases h0 : t.val % 32 = 0
    · have h1 : ¬ t.val % 32 = 31 := by omega
      rw [outsAt0_A m c t h0 h1]
      dsimp only
      rw [sout0_A_0_eq c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (pblk m c t) (tblk m c t) (mblk m c t)]
      rw [rawBlk_eq m c t]
      funext _
      exact (accK_first (argP m c) (argT m c) (argM m c) (coreOf t) (t.val % 32) _ h0 (pt t) (by show t.val = 32 * (t.val / 32); omega)).symm
    · have hlt : t.val - 1 < cfg0.N := Nat.lt_of_le_of_lt (Nat.sub_le _ _) t.isLt
      have ih : (outsAt0 (F := Ideal) m c (t.val - 1) hlt).2
          = fun _ => accK (argP m c) (argT m c) (argM m c) (coreOf ⟨t.val - 1, hlt⟩) ((t.val - 1) % 32) (Nat.mod_lt _ (by norm_num)) :=
        IH (t.val - 1) (by omega) ⟨t.val - 1, hlt⟩ rfl
      have hstep : ∀ y : S1x1.Idx,
          accK (argP m c) (argT m c) (argM m c) (coreOf ⟨t.val - 1, hlt⟩) ((t.val - 1) % 32) (Nat.mod_lt _ (by norm_num))
              - rawK (argP m c) (argT m c) (argM m c) (pt t)
            = accK (argP m c) (argT m c) (argM m c) (coreOf t) (t.val % 32) (Nat.mod_lt _ (by norm_num)) := fun _ =>
        (accK_next (argP m c) (argT m c) (argM m c) (coreOf t) (coreOf ⟨t.val - 1, hlt⟩) (t.val % 32) ((t.val - 1) % 32) _ _
          (by omega) (Fin.ext (by show (t.val - 1) / 32 = t.val / 32; omega)) (pt t)
          (by show t.val = 32 * (t.val / 32) + t.val % 32; omega)).symm
      by_cases h1 : t.val % 32 = 31
      · rw [outsAt0_C m c t h0 h1]
        dsimp only
        rw [sout0_C_0_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (pblk m c t) (tblk m c t) (mblk m c t) (outsAt0 (F := Ideal) m c (t.val - 1) hlt).2]
        rw [rawBlk_eq m c t, ih]
        funext y
        exact hstep y
      · rw [outsAt0_B m c t h0 h1]
        dsimp only
        rw [sout0_B_0_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (pblk m c t) (tblk m c t) (mblk m c t) (outsAt0 (F := Ideal) m c (t.val - 1) hlt).2]
        rw [rawBlk_eq m c t, ih]
        funext y
        exact hstep y

/-- After point `t` the carried accumulator holds its core's `accK` at the point's inner step. -/
theorem acc_inv (c : Dev nD) (t : Fin cfg0.N) :
    (outsAt0 (F := Ideal) m c t.val t.isLt).2
      = fun _ => accK (argP m c) (argT m c) (argM m c) (coreOf t) (t.val % 32) (Nat.mod_lt _ (by norm_num)) := by
  exact acc_inv_aux m c t.val t rfl

/-- At a core's last point the output block holds the core's final accumulator at (0, 0) and 0 elsewhere. -/
theorem out_last (c : Dev nD) (t : Fin cfg0.N) (h31 : t.val % 32 = 31) :
    (outsAt0 (F := Ideal) m c t.val t.isLt).1
      = fun y => if (y 0).val = 0 ∧ (y 1).val = 0
          then accK (argP m c) (argT m c) (argM m c) (coreOf t) 31 (by norm_num) else 0 := by
  have hN : t.val < 64 := lt_of_lt_of_eq t.isLt N_0
  have h0 : ¬ t.val % 32 = 0 := by omega
  have hlt : t.val - 1 < cfg0.N := Nat.lt_of_le_of_lt (Nat.sub_le _ _) t.isLt
  have ih : (outsAt0 (F := Ideal) m c (t.val - 1) hlt).2
      = fun _ => accK (argP m c) (argT m c) (argM m c) (coreOf ⟨t.val - 1, hlt⟩) ((t.val - 1) % 32) (Nat.mod_lt _ (by norm_num)) :=
    acc_inv m c ⟨t.val - 1, hlt⟩
  rw [outsAt0_C m c t h0 h31]
  dsimp only
  rw [out0_C_3_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h31) (pblk m c t) (tblk m c t) (mblk m c t) (outsAt0 (F := Ideal) m c (t.val - 1) hlt).2]
  rw [rawBlk_eq m c t, ih]
  funext y
  refine congrArg (fun v : EReal => if (y 0).val = 0 ∧ (y 1).val = 0 then v else 0) ?_
  exact (accK_next (argP m c) (argT m c) (argM m c) (coreOf t) (coreOf ⟨t.val - 1, hlt⟩) 31 ((t.val - 1) % 32) _ _
          (by omega) (Fin.ext (by show (t.val - 1) / 32 = t.val / 32; omega)) (pt t)
          (by show t.val = 32 * (t.val / 32) + 31; omega)).symm

end Cert.KernelIdeal.Hand

end
-- ==== Proof.KRun.lean ====
/-
  The kernel program's run, read as a value.  Each core's output block [8, 128] is written back once, at the core's
  last grid point, so the output array [16, 128] ends with core c's final accumulator at entry (8c, 0) and 0
  elsewhere; the host's total sum of that array onto 0 is the two accumulators added: `kernelVal`.
-/
import proofs.«402266_j6811818132220_3_alg».proof.Proof.KAccum
import Idealize.ShloMosaic.Lib.Pipeline.Value

set_option maxRecDepth 16384

noncomputable section

open scoped BigOperators

namespace Cert.KernelIdeal.Hand

open Idealize.ShloMosaic Idealize.ShloMosaic.ValueIdx Idealize.ShloMosaic.TcCoe Idealize.SL.Sem
open Cert.KernelIdeal Cert.KernelIdeal.Gen Cert.PairLoss

section

variable (m : (ℓ : Loc nD τ sig) → Buf (Elt Ideal) ℓ)

/-- The output window's block index at a grid point is (the point's core, 0), and the block is written back exactly at a
    core's last point. -/
theorem out_idx : ∀ t : Fin cfg0.N, win0_3.index t (0 : Fin 2) = t.val / 32 ∧ win0_3.index t (1 : Fin 2) = 0
    ∧ ((cfg0.win 3).flush t = true ↔ t.val % 32 = 31) :=
  (by decide +kernel : ∀ t : Fin grid0.N, _)

/-- The output array after the run: core r / 8's final accumulator at row 8·(r / 8), column 0; zero elsewhere. -/
def outArr (c : Dev nD) : S16x128.Idx → EReal := fun i =>
  if (i 0).val % 8 = 0 ∧ (i 1).val = 0
    then accK (argP m c) (argT m c) (argM m c) ⟨(i 0).val / 8, by have : (i 0).val < 16 := (i 0).isLt; omega⟩ 31 (by norm_num)
    else 0

/-- What a core's last point writes back is its block of `outArr`: inside the block, row 8·core + y₀ is a multiple of 8
    exactly when y₀ = 0, and its quotient by 8 is the core. -/
theorem out_flushed_eq (c : Dev nD) (t : Fin cfg0.N) (hf : (cfg0.win 3).flush t = true) :
    (dats m 0 c).flushed 3 t = ((cfg0.win 3).blk t).view.read (Elt Ideal) (outArr m c) := by
  obtain ⟨e0, e1, e2⟩ := out_idx t
  have h31 : t.val % 32 = 31 := e2.mp hf
  show (cfg0.win 3).cut (grid0.coords t) ((dats m 0 c).after 3 t) = _
  rw [after0_3]
  rw [out_last m c t h31]
  funext y
  show (if (y 0).val = 0 ∧ (y 1).val = 0 then accK (argP m c) (argT m c) (argM m c) (coreOf t) 31 (by norm_num) else 0)
      = outArr m c (((cfg0.win 3).blk t).view.emb y)
  have h0 : ((((cfg0.win 3).blk t).view.emb y) 0).val = win0_3.index t (0 : Fin 2) * 8 + 1 * (y 0).val := rfl
  have h1 : ((((cfg0.win 3).blk t).view.emb y) 1).val = win0_3.index t (1 : Fin 2) * 128 + 1 * (y 1).val := rfl
  have hy0 : (y 0).val < 8 := (y 0).isLt
  generalize ((cfg0.win 3).blk t).view.emb y = i at h0 h1
  unfold outArr
  have hc : ((i 0).val % 8 = 0 ∧ (i 1).val = 0) ↔ ((y 0).val = 0 ∧ (y 1).val = 0) := by omega
  have hq : coreOf t = ⟨(i 0).val / 8, by have : (i 0).val < 16 := (i 0).isLt; omega⟩ :=
    Fin.ext (by show t.val / 32 = (i 0).val / 8; omega)
  rw [hq]
  exact if_congr hc.symm rfl rfl

/-- An index of the output array is in a point's block iff each coordinate is in the block's range on its axis. -/
theorem out_mem_blk (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0).slice (win0_3.rect t)).set ↔ _
  rw [View.set_slice_whole, Rect.mem_set_unit]
  exact Iff.rfl

/-- Row r of the output array is written back by the last point of core r / 8. -/
theorem out_cover (i : S16x128.Idx) : ∃ t : Fin cfg0.N, (cfg0.win 3).flush t = true ∧ i ∈ ((cfg0.win 3).blk t).view.set := by
  have hi0 : (i 0).val < 16 := (i 0).isLt
  have hi1 : (i 1).val < 128 := (i 1).isLt
  have hN : cfg0.N = 64 := N_0
  obtain ⟨t, ht⟩ : ∃ t : Fin cfg0.N, t.val = 32 * ((i 0).val / 8) + 31 := ⟨⟨32 * ((i 0).val / 8) + 31, by omega⟩, rfl⟩
  obtain ⟨e0, e1, e2⟩ := out_idx t
  refine ⟨t, e2.mpr (by omega), ?_⟩
  rw [out_mem_blk]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 128 ≤ (i 1).val ∧ (i 1).val < win0_3.index t (1 : Fin 2) * 128 + 128; omega

/-- The output array after the whole grid. -/
theorem out_final (c : Dev nD) : (dats m 0 c).arrAt 3 cfg0.N = outArr m c :=
  (dats m 0 c).arrAt_eq_of_cover 3 (outArr m c) (fun t hf => out_flushed_eq m c t hf) out_cover

/-- The output array read at explicit coordinates. -/
theorem outArr_ix2 (c : Dev nD) (a : Fin 16) (b : Fin 128) :
    outArr m c (ix2 a b) = if a.val % 8 = 0 ∧ b.val = 0
      then accK (argP m c) (argT m c) (argM m c) ⟨a.val / 8, by have := a.isLt; omega⟩ 31 (by norm_num) else 0 := rfl

/-- The array's total: only entries (0, 0) and (8, 0) can be nonzero, and they are the two cores' final accumulators. -/
theorem sum_outArr (c : Dev nD) :
    ∑ i : S16x128.Idx, outArr m c i
      = accK (argP m c) (argT m c) (argM m c) 0 31 (by omega) + accK (argP m c) (argT m c) (argM m c) 1 31 (by omega) := by
  rw [sum_idx2]
  have hin : ∀ a : Fin 16, ∑ b : Fin 128, outArr m c (ix2 a b) = outArr m c (ix2 a 0) := fun a =>
    Finset.sum_eq_single (0 : Fin 128)
      (fun b _ hb => by rw [outArr_ix2]; exact if_neg (fun h => hb (Fin.ext h.2)))
      (fun h => absurd (Finset.mem_univ _) h)
  rw [Finset.sum_congr rfl fun a _ => hin a]
  rw [Fintype.sum_eq_add (0 : Fin 16) (8 : Fin 16) (by decide)
    (fun a ha => by
      rw [outArr_ix2]
      refine if_neg (fun h => ?_)
      have h8 : a.val % 8 = 0 := h.1
      have hlt : a.val < 16 := a.isLt
      rcases (by omega : a.val = 0 ∨ a.val = 8) with h0 | h0
      · exact ha.1 (Fin.ext h0)
      · exact ha.2 (Fin.ext h0))]
  rw [outArr_ix2, outArr_ix2, if_pos ⟨rfl, rfl⟩, if_pos ⟨rfl, rfl⟩]
  rfl

/-- The host's total sum of the output array onto the constant 0 is `kernelVal`: 0 plus the two accumulators. -/
theorem tail_val (c : Dev nD) :
    Pipeline.afterTail₀ cfgs (dats m) 0 (V0 m) [hostOps1] c main_v1
      = fun _ => kernelVal (argP m c) (argT m c) (argM m c) := by
  unfold Pipeline.afterTail₀
  show StableHlo.after hostOps1 _ (Proc.devRef .tc main_v1) = _
  after_results
  have hA : Pipeline.withArrays (cfgs 0).spec c (V0 m c) (fun w => (dats m 0 c).arrAt w (cfgs 0).N) (Proc.devRef .tc main_v0) = outArr m c :=
    (Pipeline.withArrays_arr spec0 launch0.win.arr_inj c _ _ 3).trans (out_final m c)
  rw [hA]
  funext j
  show Ideal.hostReduceAdd reducesTo_S16x128_S_d0_1 (outArr m c) (Ideal.ofBits .f32 0x00000000#32) j = _
  rw [Ideal.hostReduceAdd_total _ (fun b => b.elim0), sum_outArr, Ideal.ofBits_zero_f32]
  rfl

end

/-- Every weakly fair execution of the idealized kernel program terminates with its result at the kernel's closed
    form of the argument arrays, which end unchanged. -/
theorem run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v1)
        = (fun _ => kernelVal (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (Cert.KernelIdeal.defs (F := Ideal)) _ _).mono (fun r h c =>
    ⟨((h c).2 main_v1 (Pipeline.mem_restRefs_of main_v1 rfl (by decide))).trans (tail_val m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Hand

end
-- ==== Proof.RefTerm.lean ====
/-
  The reference program's result as ONE pure term of its three argument arrays, operation by operation in the
  program's order: the labels converted to numbers; the score and label differences over all column pairs of a row
  (each array broadcast along a new second, resp. third, axis); the pairwise validity as the word-wise AND converted;
  the strict upper triangle as the row iota compared with the column iota; log σ of the product of the two differences by
  the softplus formula; times the square of (label difference × validity); the triangle selecting the term or 0; the
  total sum onto 0; negated.
-/
import proofs.«402266_j6811818132220_3_alg».proof.ReferenceIdeal

noncomputable section

namespace Cert.ReferenceIdeal.Hand

open Idealize.ShloMosaic Cert.ReferenceIdeal
open Cert.ReferenceIdeal.Facts₀ Cert.ReferenceIdeal.Facts

variable {F : FTy → Type} [FloatOps F] [Cert.ReferenceIdeal.Facts]

/-- The all-zero [1024, 256, 256] array the softplus formula compares with. -/
def zeros3 : FVec F S1024x256x256 .f32 :=
  broadcastInDim S1024x256x256 ![] bcast_S_S1024x256x256 (constant S_ .f32 0x00000000#32)

/-- log σ elementwise, as the reference's outlined functions compute it: −softplus(−x), with
    softplus(y) = max(y, 0) + log(1 + e^{−|y − 0|}) wherever y − 0 equals itself. -/
def logSigmoid (x : FVec F S1024x256x256 .f32) : FVec F S1024x256x256 .f32 :=
  let y : FVec F S1024x256x256 .f32 := Host.negf x
  let d : FVec F S1024x256x256 .f32 := subf y zeros3
  Host.negf (select (cmpf .une d d) (addf y zeros3)
    (addf (maximumf y zeros3) (Host.log1p (Host.exp (Host.negf (Host.absf d))))))

/-- The strict upper triangle of a [256, 256] array of booleans: row index ≥ column index gives false. -/
def upperTri : IVec S256x256 1 :=
  select (cmpi .sge (addi (iotaInDim S256x256 32 0) (broadcastInDim S256x256 ![] bcast_S_S256x256 (constantI S_ 32 0#32)))
      (iotaInDim S256x256 32 1))
    (broadcastInDim S256x256 ![] bcast_S_S256x256 (constantI S_ 1 0#1))
    (broadcastInDim S256x256 ![] bcast_S_S256x256 (constantI S_ 1 1#1))

/-- An array [1024, 256] as rows against the third axis: entry (b, i, j) is the array's (b, i). -/
def alongCols {α : Type} (x : S1024x256.Idx → α) : S1024x256x256.Idx → α :=
  broadcastInDim S1024x256x256 ![0, 1, 2] bcast_S1024x256x1_S1024x256x256_0_1_2
    (broadcastInDim S1024x256x1 ![0, 1] bcast_S1024x256_S1024x256x1_0_1 x)

/-- … and against the second axis: entry (b, i, j) is the array's (b, j). -/
def alongRows {α : Type} (x : S1024x256.Idx → α) : S1024x256x256.Idx → α :=
  broadcastInDim S1024x256x256 ![0, 1, 2] bcast_S1024x1x256_S1024x256x256_0_1_2
    (broadcastInDim S1024x1x256 ![0, 2] bcast_S1024x256_S1024x1x256_0_2 x)

/-- The reference's result as a term of its arguments. -/
def refTerm (a0 : FVec F S1024x256 .f32) (a1 a2 : IVec S1024x256 32) : FVec F S_ .f32 :=
  let t : FVec F S1024x256 .f32 := sitofp .f32 a1
  let diff : FVec F S1024x256x256 .f32 := subf (alongCols a0) (alongRows a0)
  let tdiff : FVec F S1024x256x256 .f32 := subf (alongCols t) (alongRows t)
  let pmask : FVec F S1024x256x256 .f32 := sitofp .f32 (andi (alongCols a2) (alongRows a2))
  let w : FVec F S1024x256x256 .f32 := mulf tdiff pmask
  let lossMat : FVec F S1024x256x256 .f32 := mulf (logSigmoid (mulf diff tdiff)) (mulf w w)
  let tri : IVec S1024x256x256 1 :=
    broadcastInDim S1024x256x256 ![0, 1, 2] bcast_S1x256x256_S1024x256x256_0_1_2
      (broadcastInDim S1x256x256 ![1, 2] bcast_S256x256_S1x256x256_1_2 upperTri)
  let sel : FVec F S1024x256x256 .f32 :=
    select tri lossMat (broadcastInDim S1024x256x256 ![] bcast_S_S1024x256x256 (constant S_ .f32 0x00000000#32))
  Host.negf (Host.reduceAdd sel (constant S_ .f32 0x00000000#32) reducesTo_S1024x256x256_S_d0_1_2 h_S_)

end Cert.ReferenceIdeal.Hand

end
-- ==== Proof.RefRun.lean ====
/-
  The reference program's run: a straight line of host operations (its outlined functions inlined where
  they are called), so every weakly fair execution terminates with each buffer at its operation's value; the
  result is the composed term `refTerm` of the arguments, which end unchanged.
-/
import proofs.«402266_j6811818132220_3_alg».proof.Proof.RefTerm
import proofs.«402266_j6811818132220_3_alg».proof.Proof.Gen.ReferenceIdeal
import Idealize.ShloMosaic.Lib.StableHlo.Run

noncomputable section

namespace Cert.ReferenceIdeal.Hand

open Idealize.ShloMosaic Idealize.ShloMosaic.TcCoe Idealize.ShloMosaic.StableHlo Idealize.SL.Sem Cert.ReferenceIdeal
open Cert.ReferenceIdeal.Facts₀ Cert.ReferenceIdeal.Facts

variable {F : FTy → Type} [FloatOps F] [Cert.ReferenceIdeal.Facts]

/-- The reference's operations in order, each call replaced by its callee's operations over that call's own
    buffers: the label conversion, the three pairs of broadcasts with the two differences and the validity word,
    the all-true square and the nine operations of the upper triangle over it, the product of the differences and
    the sixteen operations of log σ (a negation, the fourteen of the softplus formula, a negation), the weight, its
    square, the loss term, the triangle laid over the rows and the three operations of the selection against 0,
    the total sum and its negation. -/
abbrev ops : List (HloOp τ sig (Elt F)) :=
  [ unary main_arg1 main_v0 (sitofp .f32 : (⟨S1024x256, .i32⟩ : BufTy).Contents (Elt F) → (⟨S1024x256, .f32⟩ : BufTy).Contents (Elt F)),
    unary main_arg0 main_v1 (broadcastInDim S1024x256x1 ![0, 1] bcast_S1024x256_S1024x256x1_0_1 : (⟨S1024x256, .f32⟩ : BufTy).Contents (Elt F) → (⟨S1024x256x1, .f32⟩ : BufTy).Contents (Elt F)),
    unary main_arg0 main_v2 (broadcastInDim S1024x1x256 ![0, 2] bcast_S1024x256_S1024x1x256_0_2 : (⟨S1024x256, .f32⟩ : BufTy).Contents (Elt F) → (⟨S1024x1x256, .f32⟩ : BufTy).Contents (Elt F)),
    unary main_v1 main_v3 (broadcastInDim S1024x256x256 ![0, 1, 2] bcast_S1024x256x1_S1024x256x256_0_1_2 : (⟨S1024x256x1, .f32⟩ : BufTy).Contents (Elt F) → (⟨S1024x256x256, .f32⟩ : BufTy).Contents (Elt F)),
    unary main_v2 main_v4 (broadcastInDim S1024x256x256 ![0, 1, 2] bcast_S1024x1x256_S1024x256x256_0_1_2 : (⟨S1024x1x256, .f32⟩ : BufTy).Contents (Elt F) → (⟨S1024x256x256, .f32⟩ : BufTy).Contents (Elt F)),
    binary main_v3 main_v4 main_v5 (subf : (⟨S1024x256x256, .f32⟩ : BufTy).Contents (Elt F) → (⟨S1024x256x256, .f32⟩ : BufTy).Contents (Elt F) → (⟨S1024x256x256, .f32⟩ : BufTy).Contents (Elt F)),
    unary main_v0 main_v6 (broadcastInDim S1024x256x1 ![0, 1] bcast_S1024x256_S1024x256x1_0_1 : (⟨S1024x256, .f32⟩ : BufTy).Contents (Elt F) → (⟨S1024x256x1, .f32⟩ : BufTy).Contents (Elt F)),
    unary main_v0 main_v7 (broadcastInDim S1024x1x256 ![0, 2] bcast_S1024x256_S1024x1x256_0_2 : (⟨S1024x256, .f32⟩ : BufTy).Contents (Elt F) → (⟨S1024x1x256, .f32⟩ : BufTy).Contents (Elt F)),
    unary main_v6 main_v8 (broadcastInDim S1024x256x256 ![0, 1, 2] bcast_S1024x256x1_S1024x256x256_0_1_2 : (⟨S1024x256x1, .f32⟩ : BufTy).Contents (Elt F) → (⟨S1024x256x256, .f32⟩ : BufTy).Contents (Elt F)),
    unary main_v7 main_v9 (broadcastInDim S1024x256x256 ![0, 1, 2] bcast_S1024x1x256_S1024x256x256_0_1_2 : (⟨S1024x1x256, .f32⟩ : BufTy).Contents (Elt F) → (⟨S1024x256x256, .f32⟩ : BufTy).Contents (Elt F)),
    binary main_v8 main_v9 main_v10 (subf : (⟨S1024x256x256, .f32⟩ : BufTy).Contents (Elt F) → (⟨S1024x256x256, .f32⟩ : BufTy).Contents (Elt F) → (⟨S1024x256x256, .f32⟩ : BufTy).Contents (Elt F)),
    unary main_arg2 main_v11 (broadcastInDim S1024x256x1 ![0, 1] bcast_S1024x256_S1024x256x1_0_1 : (⟨S1024x256, .i32⟩ : BufTy).Contents (Elt F) → (⟨S1024x256x1, .i32⟩ : BufTy).Contents (Elt F)),
    unary main_arg2 main_v12 (broadcastInDim S1024x1x256 ![0, 2] bcast_S1024x256_S1024x1x256_0_2 : (⟨S1024x256, .i32⟩ : BufTy).Contents (Elt F) → (⟨S1024x1x256, .i32⟩ : BufTy).Contents (Elt F)),
    unary main_v11 main_v13 (broadcastInDim S1024x256x256 ![0, 1, 2] bcast_S1024x256x1_S1024x256x256_0_1_2 : (⟨S1024x256x1, .i32⟩ : BufTy).Contents (Elt F) → (⟨S1024x256x256, .i32⟩ : BufTy).Contents (Elt F)),
    unary main_v12 main_v14 (broadcastInDim S1024x256x256 ![0, 1, 2] bcast_S1024x1x256_S1024x256x256_0_1_2 : (⟨S1024x1x256, .i32⟩ : BufTy).Contents (Elt F) → (⟨S1024x256x256, .i32⟩ : BufTy).Contents (Elt F)),
    binary main_v13 main_v14 main_v15 (andi : (⟨S1024x256x256, .i32⟩ : BufTy).Contents (Elt F) → (⟨S1024x256x256, .i32⟩ : BufTy).Contents (Elt F) → (⟨S1024x256x256, .i32⟩ : BufTy).Contents (Elt F)),
    unary main_v15 main_v16 (sitofp .f32 : (⟨S1024x256x256, .i32⟩ : BufTy).Contents (Elt F) → (⟨S1024x256x256, .f32⟩ : BufTy).Contents (Elt F)),
    nullary main_c (constantI S_ 1 1#1),
    unary main_c main_v17 (broadcastInDim S256x256 ![] bcast_S_S256x256 : (⟨S_, .i1⟩ : BufTy).Contents (Elt F) → (⟨S256x256, .i1⟩ : BufTy).Contents (Elt F)),
    TRef.nullary main_call0.v0 (iotaInDim S256x256 32 0),
    TRef.nullary main_call0.c (constantI S_ 32 0#32),
    TRef.unary main_call0.c main_call0.v1 (broadcastInDim S256x256 ![] bcast_S_S256x256),
    TRef.binary main_call0.v0 main_call0.v1 main_call0.v2 addi,
    TRef.nullary main_call0.v3 (iotaInDim S256x256 32 1),
    TRef.binary main_call0.v2 main_call0.v3 main_call0.v4 (cmpi .sge),
    TRef.nullary main_call0.c_0 (constantI S_ 1 0#1),
    TRef.unary main_call0.c_0 main_call0.v5 (broadcastInDim S256x256 ![] bcast_S_S256x256),
    TRef.ternary main_call0.v4 main_call0.v5 (.of main_v17 : TRef sig ⟨S256x256, .i1⟩) main_call0.v6 select,
    binary main_v5 main_v10 main_v19 (mulf : (⟨S1024x256x256, .f32⟩ : BufTy).Contents (Elt F) → (⟨S1024x256x256, .f32⟩ : BufTy).Contents (Elt F) → (⟨S1024x256x256, .f32⟩ : BufTy).Contents (Elt F)),
    TRef.unary (.of main_v19 : TRef sig ⟨S1024x256x256, .f32⟩) main_call1.v0 Host.negf,
    TRef.nullary main_call1.call0.cst (constant S_ .f32 0x00000000#32),
    TRef.unary main_call1.call0.cst main_call1.call0.v0 (broadcastInDim S1024x256x256 ![] bcast_S_S1024x256x256),
    TRef.binary main_call1.v0 main_call1.call0.v0 main_call1.call0.v1 maximumf,
    TRef.unary main_call1.call0.cst main_call1.call0.v2 (broadcastInDim S1024x256x256 ![] bcast_S_S1024x256x256),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S1024x256x256 ![] bcast_S_S1024x256x256),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    binary main_v10 main_v16 main_v21 (mulf : (⟨S1024x256x256, .f32⟩ : BufTy).Contents (Elt F) → (⟨S1024x256x256, .f32⟩ : BufTy).Contents (Elt F) → (⟨S1024x256x256, .f32⟩ : BufTy).Contents (Elt F)),
    binary main_v21 main_v21 main_v22 (mulf : (⟨S1024x256x256, .f32⟩ : BufTy).Contents (Elt F) → (⟨S1024x256x256, .f32⟩ : BufTy).Contents (Elt F) → (⟨S1024x256x256, .f32⟩ : BufTy).Contents (Elt F)),
    binary main_v20 main_v22 main_v23 (mulf : (⟨S1024x256x256, .f32⟩ : BufTy).Contents (Elt F) → (⟨S1024x256x256, .f32⟩ : BufTy).Contents (Elt F) → (⟨S1024x256x256, .f32⟩ : BufTy).Contents (Elt F)),
    unary main_v18 main_v24 (broadcastInDim S1x256x256 ![1, 2] bcast_S256x256_S1x256x256_1_2 : (⟨S256x256, .i1⟩ : BufTy).Contents (Elt F) → (⟨S1x256x256, .i1⟩ : BufTy).Contents (Elt F)),
    nullary main_cst (constant S_ .f32 0x00000000#32),
    TRef.unary (.of main_v24 : TRef sig ⟨S1x256x256, .i1⟩) main_call2.v0 (broadcastInDim S1024x256x256 ![0, 1, 2] bcast_S1x256x256_S1024x256x256_0_1_2),
    TRef.unary (.of main_cst : TRef sig ⟨S_, .f32⟩) main_call2.v1 (broadcastInDim S1024x256x256 ![] bcast_S_S1024x256x256),
    TRef.ternary main_call2.v0 (.of main_v23 : TRef sig ⟨S1024x256x256, .f32⟩) main_call2.v1 main_call2.v2 select,
    nullary main_cst_0 (constant S_ .f32 0x00000000#32),
    binary main_v25 main_cst_0 main_v26 ((fun x v => Host.reduceAdd x v reducesTo_S1024x256x256_S_d0_1_2 h_S_) : (⟨S1024x256x256, .f32⟩ : BufTy).Contents (Elt F) → (⟨S_, .f32⟩ : BufTy).Contents (Elt F) → (⟨S_, .f32⟩ : BufTy).Contents (Elt F)),
    unary main_v26 main_v27 (Host.negf : (⟨S_, .f32⟩ : BufTy).Contents (Elt F) → (⟨S_, .f32⟩ : BufTy).Contents (Elt F)) ]

set_option maxRecDepth 2048 in
/-- The program is that straight line: the functions' bodies unfolded at their calls and the calls' records at
    their fields, both sides are one chain of steps once sequencing is re-associated. -/
theorem main_eq (c : Dev nD) : main (F := F) c = seq ops := by
  simp only [main, fn_triu.body, fn_log_sigmoid.body, fn_softplus.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., unary_bufs_sub .., binary_bufs_sub ..,
    unary_bufs_sub .., unary_bufs_sub .., unary_bufs_sub .., unary_bufs_sub .., binary_bufs_sub .., unary_bufs_sub ..,
    unary_bufs_sub .., unary_bufs_sub .., unary_bufs_sub .., binary_bufs_sub .., unary_bufs_sub .., nullary_bufs_sub ..,
    unary_bufs_sub .., nullary_bufs_sub .., nullary_bufs_sub .., unary_bufs_sub .., binary_bufs_sub .., nullary_bufs_sub ..,
    binary_bufs_sub .., nullary_bufs_sub .., unary_bufs_sub .., ternary_bufs_sub .., binary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., binary_bufs_sub .., binary_bufs_sub .., binary_bufs_sub ..,
    unary_bufs_sub .., nullary_bufs_sub .., unary_bufs_sub .., unary_bufs_sub .., ternary_bufs_sub .., nullary_bufs_sub ..,
    binary_bufs_sub .., unary_bufs_sub ..⟩

/-- The fold of the operations at the result buffer is `refTerm` of the contents at the three argument buffers:
    each operation's value read at its own buffer, every other buffer kept, and the term's auxiliary definitions
    are the callee's operations spelled once. -/
theorem out_eq (V : Valuation τ sig (Elt F)) :
    after ops V (main_v27 : DevRef τ sig)
      = refTerm (F := F) (V (main_arg0 : DevRef τ sig)) (V (main_arg1 : DevRef τ sig)) (V (main_arg2 : DevRef τ sig)) := by
  after_results_simp
  rfl

/-- No operation writes an argument buffer. -/
theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp

/-- Every weakly fair execution of the reference terminates with its result at `refTerm` of the argument arrays,
    which end unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v27)
        = refTerm (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v27).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.Hand

end
-- ==== Proof.RefRead.lean ====
/-
  The reference's composed term read at the extended reals: each broadcast read at an index (entry (b, i, j) of an
  array laid along the columns is its (b, i), along the rows its (b, j)), the triangle's iota comparison as i < j,
  the softplus formula's self-comparison never true, the total sum as the sum over all indices: the closed form
  `refVal`.
-/
import proofs.«402266_j6811818132220_3_alg».proof.Proof.RefTerm
import proofs.«402266_j6811818132220_3_alg».proof.Proof.Spec
import Idealize.ShloMosaic.Lib.StableHlo.Predicate
import Idealize.ShloMosaic.Lib.Pipeline.Value

noncomputable section

open scoped BigOperators

namespace Cert.ReferenceIdeal.Hand

open Idealize.ShloMosaic Idealize.ShloMosaic.ValueIdx Cert.ReferenceIdeal Cert.PairLoss
open Cert.ReferenceIdeal.Facts₀ Cert.ReferenceIdeal.Facts

variable [Cert.ReferenceIdeal.Facts]

/-! ## The broadcasts read at an index

A broadcast reads its operand at the result index's coordinates on the axes it keeps and at 0 on the operand's axes of
extent one; composing the two broadcasts of each pair, the intermediate index has a 0 on the new axis. -/

/-- An array laid along the columns: entry (b, i, j) is the array's (b, i) — through [1024, 256, 1] at (b, i, 0). -/
theorem alongCols_apply {α : Type} (x : S1024x256.Idx → α) (b : Fin 1024) (i j : Fin 256) :
    alongCols x (ix3 b i j) = x (ix2 b i) := by
  unfold alongCols
  rw [broadcastInDim_apply _ _ _ (ix3 b i j) (ix3 b i (0 : Fin 1)) ?_,
    broadcastInDim_apply _ _ _ (ix3 b i (0 : Fin 1)) (ix2 b i) ?_]
  · intro a
    match a with
    | ⟨0, _⟩ => rfl
    | ⟨1, _⟩ => rfl
  · intro a
    match a with
    | ⟨0, _⟩ => rfl
    | ⟨1, _⟩ => rfl
    | ⟨2, _⟩ => rfl

/-- An array laid along the rows: entry (b, i, j) is the array's (b, j) — through [1024, 1, 256] at (b, 0, j). -/
theorem alongRows_apply {α : Type} (x : S1024x256.Idx → α) (b : Fin 1024) (i j : Fin 256) :
    alongRows x (ix3 b i j) = x (ix2 b j) := by
  unfold alongRows
  rw [broadcastInDim_apply _ _ _ (ix3 b i j) (ix3 b (0 : Fin 1) j) ?_,
    broadcastInDim_apply _ _ _ (ix3 b (0 : Fin 1) j) (ix2 b j) ?_]
  · intro a
    match a with
    | ⟨0, _⟩ => rfl
    | ⟨1, _⟩ => rfl
  · intro a
    match a with
    | ⟨0, _⟩ => rfl
    | ⟨1, _⟩ => rfl
    | ⟨2, _⟩ => rfl

/-- A [256, 256] array repeated over the 1024 rows: entry (b, i, j) is the array's (i, j) — through [1, 256, 256]
    at (0, i, j). -/
theorem triBcast_apply {α : Type} (u : S256x256.Idx → α) (b : Fin 1024) (i j : Fin 256) :
    broadcastInDim S1024x256x256 ![0, 1, 2] bcast_S1x256x256_S1024x256x256_0_1_2
      (broadcastInDim S1x256x256 ![1, 2] bcast_S256x256_S1x256x256_1_2 u) (ix3 b i j) = u (ix2 i j) := by
  rw [broadcastInDim_apply _ _ _ (ix3 b i j) (ix3 (0 : Fin 1) i j) ?_,
    broadcastInDim_apply _ _ _ (ix3 (0 : Fin 1) i j) (ix2 i j) ?_]
  · intro a
    match a with
    | ⟨0, _⟩ => rfl
    | ⟨1, _⟩ => rfl
  · intro a
    match a with
    | ⟨0, _⟩ => rfl
    | ⟨1, _⟩ => rfl
    | ⟨2, _⟩ => rfl

/-- A word-wise AND at an index is the AND of the two words there. -/
theorem andi_apply {s : Shape} {w : Nat} (a b : IVec s w) (i : s.Idx) : andi a b i = a i &&& b i := rfl

/-! ## The strict upper triangle

At (a, b) the two iotas are the words of a and of b, both below 256, so far below 2³¹: the signed comparison
"a + 0 ≥ b" is the comparison of the naturals, and the select of the constants false / true on it is the bit of
a < b. -/

/-- The triangle's bit at (a, b) is 1 exactly when a < b. -/
theorem upperTri_apply (a b : Fin 256) : upperTri (ix2 a b) = if a.val < b.val then 1#1 else 0#1 := by
  have h : upperTri (ix2 a b)
      = Scalar.select (IntOp.cmpi .sge (IntOp.addi (BitVec.ofNat 32 a.val) 0#32) (BitVec.ofNat 32 b.val)) 0#1 1#1 := rfl
  have h0 : IntOp.addi (BitVec.ofNat 32 a.val) 0#32 = BitVec.ofNat 32 a.val := by
    unfold IntOp.addi; exact BitVec.add_zero _
  have ha : (BitVec.ofNat 32 a.val).toNat = a.val := by
    rw [BitVec.toNat_ofNat]; have := a.isLt; omega
  have hb : (BitVec.ofNat 32 b.val).toNat = b.val := by
    rw [BitVec.toNat_ofNat]; have := b.isLt; omega
  have hiff := StableHlo.Predicate.sge_iff_toNat (a := BitVec.ofNat 32 a.val) (b := BitVec.ofNat 32 b.val)
    (by rw [ha]; have := a.isLt; omega) (by rw [hb]; have := b.isLt; omega)
  rw [ha, hb] at hiff
  rw [h, h0]
  by_cases hab : a.val < b.val
  · have hne : ¬ IntOp.cmpi .sge (BitVec.ofNat 32 a.val) (BitVec.ofNat 32 b.val) = 1#1 := fun hh => by
      have := hiff.mp hh; omega
    rw [eq_zero_of_ne_one hne, select_zero, if_pos hab]
  · rw [hiff.mpr (by omega), select_one, if_neg hab]

/-! ## log σ by the softplus formula

With y = −x and d = y − 0 = y: an extended real never differs from itself, so the select takes its second branch,
max(y, 0) + log(1 + e^{−|d|}) with |d| = max(d, −d); negated, this is `ls x` letter for letter. -/

/-- The zero array reads 0 everywhere. -/
theorem zeros3_apply (i : S1024x256x256.Idx) : zeros3 (F := Ideal) i = 0 := Ideal.ofBits_zero_f32

/-- The reference's log σ at an index is `ls` of the element there. -/
theorem logSigmoid_apply (x : FVec Ideal S1024x256x256 .f32) (i : S1024x256x256.Idx) :
    logSigmoid (F := Ideal) x i = ls (x i) := by
  have hc : Ideal.cmp .une (-(x i)) (-(x i)) = 0#1 := by simp [Ideal.cmp]
  show -(Scalar.select (Ideal.cmp .une (-(x i) - zeros3 (F := Ideal) i) (-(x i) - zeros3 (F := Ideal) i))
      (-(x i) + zeros3 (F := Ideal) i)
      (max (-(x i)) (zeros3 (F := Ideal) i)
        + Ideal.log1p (Ideal.exp (-(max (-(x i) - zeros3 (F := Ideal) i) (-(-(x i) - zeros3 (F := Ideal) i))))))) = ls (x i)
  rw [zeros3_apply, sub_zero, hc, select_zero]
  rfl

/-! ## The whole term

The total sum onto 0 is 0 plus the sum over all (b, i, j); under the sum the triangle's bit selects, for i < j, the
product log σ((p_i − p_j)(t_i − t_j)) · ((t_i − t_j) m_ij)², with t the labels as numbers and m_ij the AND of the two
validity words as a number, and 0 otherwise. -/

/-- The reference's term at the ideal values is its closed form. -/
theorem refTerm_eq (P : FVec Ideal S1024x256 .f32) (T M : IVec S1024x256 32) :
    refTerm (F := Ideal) P T M = fun _ => refVal P T M := by
  funext z
  simp only [refTerm]
  show -(Ideal.hostReduceAdd reducesTo_S1024x256x256_S_d0_1_2 _ (Ideal.ofBits .f32 0x00000000#32) z) = refVal P T M
  rw [Ideal.hostReduceAdd_total _ (fun b => b.elim0), Ideal.ofBits_zero_f32]
  unfold refVal
  refine congrArg Neg.neg (congrArg (fun s => (0 : EReal) + s) (Finset.sum_congr rfl fun i _ => ?_))
  obtain ⟨b, i', j, rfl⟩ : ∃ b i' j, i = ix3 b i' j := ⟨_, _, _, eq_ix3 i⟩
  rw [select_apply, triBcast_apply, upperTri_apply]
  show Scalar.select (if i'.val < j.val then 1#1 else 0#1) _ _ = if i'.val < j.val then _ else _
  by_cases h : i'.val < j.val
  · rw [if_pos h, if_pos h, select_one]
    simp only [mulf_apply, subf_apply, sitofp_apply, andi_apply, logSigmoid_apply, alongCols_apply, alongRows_apply]
    rfl
  · rw [if_neg h, if_neg h, select_zero]
    exact Ideal.ofBits_zero_f32

end Cert.ReferenceIdeal.Hand

end
-- ==== Proof.lean ====
/-
  The certificate: the kernel's pairwise ranking loss against its reference, over the extended reals.

  The kernel computes, per row, Σ_i t_i m_i · Σ_j ls(p_i − p_j) · (1 − t_j) m_j (block by block, chunk by chunk,
  subtracting each block's total from a per-core accumulator and adding the two cores on the host); the reference
  computes −Σ over column pairs i < j of ls((p_i − p_j)(t_i − t_j)) · ((t_i − t_j)·(m_i AND m_j))².  Under the
  precondition — scores finite, labels and validity flags in {0, 1} — the two are one number: a pair contributes
  only when exactly one label is 1 and both positions are valid, and then it contributes ls of the score
  difference taken from the labelled position to the unlabelled one, which is what the kernel's ordered-pair sum
  counts once.

  The three frames: the kernel's two are its generated frame certificates; the reference is a straight line of
  host operations, and its frame is its run with the result dropped.  The idealization rewrote nothing, so
  `preserves` is trivial.  The value claim pairs the kernel's run (its result at the kernel's closed form) with
  the reference's run (its result at the reference's closed form), the arguments' agreement rewritten, and the
  identity of the two closed forms under the precondition's reading.
-/
import proofs.«402266_j6811818132220_3_alg».proof.Defs
import proofs.«402266_j6811818132220_3_alg».proof.Proof.Gen.Kernel
import proofs.«402266_j6811818132220_3_alg».proof.Proof.Gen.Kernel.Skeleton
import proofs.«402266_j6811818132220_3_alg».proof.Proof.Gen.Kernel.Launch
import proofs.«402266_j6811818132220_3_alg».proof.Proof.Gen.Kernel.Points
import proofs.«402266_j6811818132220_3_alg».proof.Proof.Gen.Kernel.Frame
import proofs.«402266_j6811818132220_3_alg».proof.Proof.Gen.KernelIdeal
import proofs.«402266_j6811818132220_3_alg».proof.Proof.Gen.KernelIdeal.Skeleton
import proofs.«402266_j6811818132220_3_alg».proof.Proof.Gen.KernelIdeal.Launch
import proofs.«402266_j6811818132220_3_alg».proof.Proof.Gen.KernelIdeal.Points
import proofs.«402266_j6811818132220_3_alg».proof.Proof.Gen.KernelIdeal.Frame
import proofs.«402266_j6811818132220_3_alg».proof.Proof.Gen.ReferenceIdeal
import proofs.«402266_j6811818132220_3_alg».proof.Proof.Gen.Pre_finite_inputs
import proofs.«402266_j6811818132220_3_alg».proof.Proof.Spec
import proofs.«402266_j6811818132220_3_alg».proof.Proof.Math
import proofs.«402266_j6811818132220_3_alg».proof.Proof.PreDecode
import proofs.«402266_j6811818132220_3_alg».proof.Proof.KRun
import proofs.«402266_j6811818132220_3_alg».proof.Proof.RefRun
import proofs.«402266_j6811818132220_3_alg».proof.Proof.RefRead
import Idealize.ShloMosaic.Adequacy
import Idealize.ShloMosaic.Init

noncomputable section

namespace Cert.Proof

open Idealize.ShloMosaic Idealize.SL.Sem

section Claims

variable [hK : Cert.Kernel.Facts] [hKI : Cert.KernelIdeal.Facts] [hRI : Cert.ReferenceIdeal.Facts]
  [hPre : Cert.Pre_finite_inputs.Facts]

/-- The word-level kernel program runs and keeps its arguments: its generated frame certificate. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- From memories agreeing on the three arguments both programs end at the same extended real: the kernel's
    closed form of the arguments, which under the precondition equals the reference's. -/
theorem algebraic : Cert.algebraic_KernelIdeal_ReferenceIdeal := by
  intro m ρ m' ρ' hpre hagree
  refine ⟨fun c => fun _ => Cert.PairLoss.kernelVal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2, Cert.ReferenceIdeal.Hand.refTerm_eq]
  obtain ⟨hP, hT, hM⟩ := Cert.PairLoss.of_pre _ _ _ (hpre c)
  funext _
  exact (Cert.PairLoss.kernelVal_eq_refVal _ _ _ hP hT hM).symm

end Claims

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
